-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S128x128 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S8192x4096 : Shape := ⟨2, ![8192, 4096]⟩
abbrev S1x4096 : Shape := ⟨2, ![1, 4096]⟩
abbrev S512x4096 : Shape := ⟨2, ![512, 4096]⟩
abbrev S16x128 : Shape := ⟨2, ![16, 128]⟩
abbrev S16x1x128x1 : Shape := ⟨4, ![16, 1, 128, 1]⟩
abbrev S16x32x128x32 : Shape := ⟨4, ![16, 32, 128, 32]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S128x128, .f32⟩
  | .hbm, ⟨4, _⟩ => ⟨S8192x4096, .f32⟩
  | .hbm, ⟨5, _⟩ => ⟨S1x4096, .f32⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S128x128, .f32⟩
  | .local _ .vmem, ⟨3, _⟩ => ⟨S512x4096, .bf16⟩
  | .local _ .vmem, ⟨4, _⟩ => ⟨S512x4096, .bf16⟩
  | .local _ .vmem, ⟨5, _⟩ => ⟨S2048x256, .f32⟩
  | .local _ .vmem, ⟨6, _⟩ => ⟨S2048x256, .f32⟩
  | .local _ .vmem, ⟨7, _⟩ => ⟨S1024x256, .bf16⟩
  | .local _ .vmem, ⟨8, _⟩ => ⟨S1024x256, .bf16⟩
  | .local _ .vmem, ⟨9, _⟩ => ⟨S1x1024, .f32⟩
  | .local _ .vmem, ⟨10, _⟩ => ⟨S1x1024, .f32⟩
  | .local _ .vmem, ⟨11, _⟩ => ⟨S2048x1024, .f32⟩
  | .local _ .vmem, ⟨12, _⟩ => ⟨S2048x1024, .f32⟩
  | .local _ .vmem, ⟨13, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c16_i32 : BitVec 32 := 16#32
  let v0 : BitVec 32 := Scalar.muli arg0 c16_i32
  v0
def k0_off1 (i : grid0.Coords) : Fin 2 → Nat :=
  let arg0 : BitVec 32 := BitVec.ofNat 32 (i 0).val
  let c16_i32 : BitVec 32 := 16#32
  let v0 : BitVec 32 := Scalar.muli arg0 c16_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S4096_S1x4096 : S4096.ShapeCasts S1x4096
  h_S16x128 : 0 < S16x128.numel
  natLt_1_32 : 1 < 32
  bitsLt_bf16_f32 : FTy.bits .bf16 < FTy.bits .f32
  shapeCasts_S16x128_S16x1x128x1 : S16x128.ShapeCasts S16x1x128x1
  shapeCasts_S16x1x128x1_S16x1x128x1 : S16x1x128x1.ShapeCasts S16x1x128x1
  broadcasts_S16x1x128x1_S16x32x128x32 : S16x1x128x1.Broadcasts S16x32x128x32
  shapeCasts_S16x32x128x32_S512x4096 : S16x32x128x32.ShapeCasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x256_S1024x256_S2048x1024_1_1_0_0_n_n_wf : DotDims.WF S2048x256 S1024x256 S2048x1024 [1] [1] [0] [0] [] []
  hrank0 : 0 < grid0.rank
  k0_mult1_dvd : ∀ i : grid0.Coords, 16 ∣ (k0_mult1 i).toNat
  k0_off1_inb : ∀ i : grid0.Coords, ∀ a, (k0_off1 i) a + S16x128.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x4096.size a
  hwx1_0 : ∀ i : grid1.Coords, EltTy.bits .f32 = 32 ∨ (Rect.block (s := S8192x4096) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .bf16 = 32 ∨ (Rect.block (s := S4096x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩
abbrev S128x32x128 : Shape := ⟨3, ![128, 32, 128]⟩
abbrev S4096x128 : Shape := ⟨2, ![4096, 128]⟩
abbrev S4096x128x32 : Shape := ⟨3, ![4096, 128, 32]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S_, .f32⟩
  | .hbm, ⟨13, _⟩ => ⟨S128x128, .f32⟩
  | .hbm, ⟨14, _⟩ => ⟨S128x128, .i1⟩
  | .hbm, ⟨15, _⟩ => ⟨S128x128, .f32⟩
  | .hbm, ⟨16, _⟩ => ⟨S128x32x128, .f32⟩
  | .hbm, ⟨17, _⟩ => ⟨S4096x128, .f32⟩
  | .hbm, ⟨18, _⟩ => ⟨S4096x128x32, .f32⟩
  | .hbm, ⟨19, _⟩ => ⟨S4096x4096, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Word.MaskRegion.lean ====
/-
  The masking region (the first kernel launch): grid point j takes rows 512·j … 512·j+511 of the weight matrix and
  rows 16·j … 16·j+15 of the score matrix, and leaves in the output tile the weight entry times the 0/1 mask of its
  32×32 block, the mask being "logistic(score) > 0.1".  This module states what each window's staging buffer holds
  after the body at each grid point, and proves the body's triple against it.
-/
import proofs.«138875_j48344151883970_1_alg».proof.Proof.Gen.Kernel.Launch
import proofs.«138875_j48344151883970_1_alg».proof.Proof.Gen.Kernel.Skeleton
import proofs.«138875_j48344151883970_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.MaskRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s tile at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512×4096 tile as a rectangle, and the 16 score rows grid point `i` reads. -/
abbrev wholeTile : Rect S512x4096 := Rect.unit (s := S512x4096) ![0, 0] S512x4096.size inb_S512x4096_S512x4096_0_0
abbrev scoreRows (i : grid0.Coords) : Rect S128x128 := Rect.unit (s := S128x128) (k0_off1 i) S16x128.size (k0_off1_inb i)

/-- What the body leaves in the output tile at grid point `i`, from the weight tile `w` and the whole score matrix `s`. -/
def maskedTile (i : grid0.Coords) (w : Vec F S512x4096 .f32) (s : Vec F S128x128 .f32) : Vec F S512x4096 .bf16 :=
  k0_pay1 (View.ld s (scoreRows i)) (View.ld w wholeTile)

/-- The proof data of the masking region on core `c`. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => maskedTile (grid0.coords t) (tile V c 0 t) (tile V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_w (c : Dev nD) (t : Fin cfg0.N) : (dat V c).after 0 t = tile V c 0 t := by dsimp only [dat]
theorem after_s (c : Dev nD) (t : Fin cfg0.N) : (dat V c).after 1 t = tile V c 1 t := by dsimp only [dat]
theorem after_out (c : Dev nD) (t : Fin cfg0.N) :
    (dat V c).after 2 t = maskedTile (grid0.coords t) (tile V c 0 t) (tile V c 1 t) := by dsimp only [dat]

/-! ## What the body finds in the input windows' staging buffers -/

/-- The weight window's current staging buffer holds the point's weight tile, fetched there or not. -/
theorem before_w (c : Dev nD) (t : Fin cfg0.N) (d) : (dat V c).before 0 t d = tile V c 0 t :=
  ((dat V c).before_in_eq_fetched 0 rfl (fun _ => rfl) (fun _ _ _ => rfl)
      (fun t => by rw [after_w]; unfold Dat.blockOf tile; rw [A_eq]; try rfl) t d).trans
    (by unfold Dat.fetched Dat.blockOf tile; rw [A_eq]; try rfl)

/-- The score window's staging buffer holds the whole score matrix at every point: it is fetched at the first
    point only, and its block index never moves. -/
theorem before_s (c : Dev nD) (t : Fin cfg0.N) (d) : (dat V c).before 1 t d = tile V c 1 t :=
  ((dat V c).before_in_eq_fetched 1 rfl (fun _ => rfl) (fun _ _ _ => rfl)
      (fun t => by rw [after_s]; unfold Dat.blockOf tile; rw [A_eq]; try rfl) t d).trans
    (by unfold Dat.fetched Dat.blockOf tile; rw [A_eq]; try rfl)

/-! ## The body's triple -/

/-- The whole-tile rectangle sits at the zero offsets. -/
theorem wholeTile_off : (![0, 0] : Fin S512x4096.rank → Nat) = fun _ => 0 := by
  funext a; fin_cases a <;> rfl

set_option maxHeartbeats 1000000 in
/-- The body on whole staging memrefs — the weight buffer reading `w`, the score buffer reading `s`, the output buffer at
    anything — runs to the continuation with the two inputs as they were and the output buffer reading
    `maskedTile i w s`: it loads the 16 score rows of the point and the whole weight tile, and its one store covers the
    output tile, so the buffer reads the stored value whatever it held before. -/
theorem sound_kernel (c : Dev nD) (E : Set ℕ) (i : grid0.Coords)
    (arg1 : Memref sig .tc .vmem S512x4096 .f32) (harg1 : arg1.IsWhole)
    (arg2 : Memref sig .tc .vmem S128x128 .f32) (harg2 : arg2.IsWhole)
    (arg3 : Memref sig .tc .vmem S512x4096 .bf16) (harg3 : arg3.IsWhole)
    (w : Vec F S512x4096 .f32) (s : Vec F S128x128 .f32) (K : PUnit → sProp 𝕄) :
    iprop(owns (c : Thread nD τ) arg1 fullShare w ∗ owns (c : Thread nD τ) arg2 fullShare s
        ∗ (∃ d, owns (c : Thread nD τ) arg3 fullShare d)
        ∗ (iprop(owns (c : Thread nD τ) arg1 fullShare w ∗ owns (c : Thread nD τ) arg2 fullShare s
            ∗ owns (c : Thread nD τ) arg3 fullShare (maskedTile i w s)) -∗ K ⟨⟩))
      ⊢ wp frame (wpE (defs₀ (F := F)) Variants.none c none) E (cc0__prune_kernel i arg1 harg1 arg2 harg2 arg3 harg3) K := by
  simp only [cc0__prune_kernel_eq_skeleton]; unfold cc0__prune_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
        View.mem_set_unit_zero wholeTile_off inb_S512x4096_S512x4096_0_0 y⟩),
    View.canon_unit_zero wholeTile_off inb_S512x4096_S512x4096_0_0]
  rfl

/-! ## The body obligation, at a generic grid point -/

/-- What the body is called with at grid point `t`: the invariant, what the core owes, and each window's current staging
    buffer at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns: the same at the next point, each buffer at what the body leaves. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any grid point: the two input buffers hold their tiles, so the body's triple applies; the invariant and
    what the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_w, before_s]
  rw [show (dat V c).Φ t.succ = (dat V c).Φ t.castSucc from rfl,
    show (dat V c).owesAt () t.succ = (dat V c).owesAt () t.castSucc from rfl,
    after_w, after_s, after_out]
  iintro ⟨HΦ, Ho, ⟨%d0, H0⟩, ⟨%d1, H1⟩, ⟨%d2, H2⟩⟩
  iapply (sound_kernel c Set.univ (grid0.coords t) _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the masking region at every grid point. -/
theorem obligation (c : Dev nD) : BodyObligation (dat (F := F) V c) (defs₀ (F := F)) Variants.none () Set.univ := by
  intro t
  rw [bigSep_W0, bigSep_W0]
  exact sound_body V c t

end Cert.Kernel.MaskRegion

end
-- ==== Proof.Word.ProductRegion.lean ====
/-
  The product region (the second kernel launch): grid point (i, j, k) takes the 2048×256 tile (i, k) of the input
  rows, the 1024×256 tile (j, k) of the masked weights and the 1×1024 tile j of the bias.  A 2048×1024 accumulator is
  carried from point to point: it is reset to zero where k = 0, the tile product is added at every point, and where
  k = 15 the accumulator plus the bias row is stored into the output tile (i, j), which is written back there and only
  there.  This module states what the accumulator holds after each grid point (a recursion over the points) and what the
  output tile holds at the points that write it back, and proves the body's triple against that.
-/
import proofs.«138875_j48344151883970_1_alg».proof.Proof.Gen.Kernel.Launch
import proofs.«138875_j48344151883970_1_alg».proof.Proof.Gen.Kernel.Skeleton
import proofs.«138875_j48344151883970_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.ProductRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s tile at grid point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid point `n`: the tile product added to zero where the point's k is 0 (n ≡ 0 mod 16),
    to what the point before left otherwise. -/
def partialAfter (c : Dev nD) : (n : ℕ) → n < cfg1.N → Vec F S2048x1024 .f32
  | 0, h => k1_pay2 (tile V c 0 ⟨0, h⟩) (k1_pay1 (F := F)) (tile V c 1 ⟨0, h⟩)
  | n + 1, h => k1_pay2 (tile V c 0 ⟨n + 1, h⟩)
      (if (n + 1) % 16 = 0 then k1_pay1 (F := F) else partialAfter c n (Nat.lt_of_succ_lt h)) (tile V c 1 ⟨n + 1, h⟩)

/-- At a point whose k is 0 the accumulator restarts from zero. -/
theorem partialAfter_first (c : Dev nD) (t : Fin cfg1.N) (h : t.val % 16 = 0) :
    partialAfter V c t.val t.isLt = k1_pay2 (tile V c 0 t) (k1_pay1 (F := F)) (tile V c 1 t) := by
  obtain ⟨n, hn⟩ := t
  cases n with
  | zero => rw [partialAfter]
  | succ n => rw [partialAfter, if_pos h]

/-- At any other point it continues from what the point before left. -/
theorem partialAfter_next (c : Dev nD) (t : Fin cfg1.N) (h : t.val % 16 ≠ 0) :
    partialAfter V c t.val t.isLt
      = k1_pay2 (tile V c 0 t) (partialAfter V c (t.val - 1) (Nat.lt_of_le_of_lt (Nat.sub_le _ _) t.isLt)) (tile V c 1 t) := by
  obtain ⟨n, hn⟩ := t
  cases n with
  | zero => exact absurd (Nat.zero_mod _) h
  | succ n => rw [partialAfter, if_neg h]; rfl

/-- What the body stores into the output tile at a point whose k is 15: the accumulator after the point plus the bias row. -/
def outTile (c : Dev nD) (t : Fin cfg1.N) : Vec F S2048x1024 .f32 :=
  k1_pay3 (partialAfter V c t.val t.isLt) (tile V c 2 t)

/-! ## Where the two conditionals hold, and where the output window is live -/

/-- The first conditional's test, over the grid coordinates: the innermost coordinate is 0. -/
abbrev cond_first (i : grid1.Coords) : Prop :=
  (Scalar.cmpi .ne (Scalar.extui (Scalar.cmpi .eq (BitVec.ofNat 32 (i 2).val) 0#32)) 0#32) = 1#1
/-- It holds exactly at the points whose innermost coordinate is 0. -/
theorem cond_first_iff : ∀ t : Fin cfg1.N, cond_first (grid1.coords t) ↔ t.val % 16 = 0 :=
  (by decide +kernel : ∀ t : Fin grid1.N, cond_first (grid1.coords t) ↔ t.val % 16 = 0)

/-- The second conditional's test: the innermost coordinate is 15. -/
abbrev cond_last (i : grid1.Coords) : Prop := k1_cond2 i = 1#1
/-- It holds exactly at the points whose innermost coordinate is 15. -/
theorem cond_last_iff : ∀ t : Fin cfg1.N, cond_last (grid1.coords t) ↔ t.val % 16 = 15 :=
  (by decide +kernel : ∀ t : Fin grid1.N, cond_last (grid1.coords t) ↔ t.val % 16 = 15)

/-- The inputs are never idle. -/
theorem live_x : ∀ i, cfg1.idle 0 i = false := fun _ => rfl
theorem live_w : ∀ i, cfg1.idle 1 i = false := fun _ => rfl
theorem live_b : ∀ i, cfg1.idle 2 i = false := fun _ => rfl
/-- The output window is idle exactly off the points whose innermost coordinate is 15, -/
theorem idle_out : ∀ t : Fin cfg1.N, t.val % 16 ≠ 15 → cfg1.idle 3 (grid1.coords t) = true :=
  (by decide +kernel : ∀ t : Fin grid1.N, t.val % 16 ≠ 15 → idle1 3 (grid1.coords t) = true)
theorem live_out : ∀ t : Fin cfg1.N, t.val % 16 = 15 → cfg1.idle 3 (grid1.coords t) = false :=
  (by decide +kernel : ∀ t : Fin grid1.N, t.val % 16 = 15 → idle1 3 (grid1.coords t) = false)
/-- and is not written back there. -/
theorem noflush_out : ∀ t : Fin cfg1.N, t.val % 16 ≠ 15 → (cfg1.win 3).flush t = false :=
  (by decide +kernel : ∀ t : Fin grid1.N, t.val % 16 ≠ 15 → win1_3.flush t = false)

/-- The region's invariant before grid point `n`: at the first point every scoped buffer that is no staging buffer of
    this launch at anything; afterwards the accumulator at `partialAfter` of the point before, the others at anything;
    the generator register at some state throughout. -/
abbrev accRef : Memref sig .tc .vmem S2048x1024 .f32 := Memref.whole cc1_scratch0

/-- The first launch's staging buffers, which this launch leaves alone: each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

def inv (c : Dev nD) : (n : ℕ) → n ≤ cfg1.N → sProp 𝕄
  | 0, _ => Pipeline.ΦA spec1 c
  | n + 1, hn => iprop(otherScoped (F := F) c ∗ owns (c : Thread nD τ) accRef fullShare (partialAfter V c n hn) ∗ ∃ r, prngReg c r)

/-! ## The invariant restated -/

/-- The class's invariant names the accumulator among the scoped buffers; here it is split off as a whole memref
    owned at some contents, beside the first launch's staging buffers and the generator register. -/
theorem PhiA_split (c : Dev nD) :
    (Pipeline.ΦA spec1 c : sProp 𝕄)
      ⊢ iprop(otherScoped (F := F) c ∗ (∃ d, owns (c : Thread nD τ) accRef fullShare d) ∗ ∃ r, prngReg c r) := by
  unfold Pipeline.ΦA; rw [scopedRest1_eq]; unfold otherScoped; simp only [owns_whole]
  iintro ⟨⟨A0, A1, A2, A3, A4, ⟨%f, S⟩⟩, Hg⟩
  isplitl [A0 A1 A2 A3 A4]
  · isplitl [A0]; · iexact A0
    isplitl [A1]; · iexact A1
    isplitl [A2]; · iexact A2
    isplitl [A3]; · iexact A3
    iexact A4
  isplitl [S]
  · iexists f; iexact S
  iexact Hg

/-- And put back: an accumulator owned at any contents is one of the scoped buffers at some contents. -/
theorem PhiA_join (c : Dev nD) :
    iprop(otherScoped (F := F) c ∗ (∃ d, owns (c : Thread nD τ) accRef fullShare d) ∗ ∃ r, prngReg c r)
      ⊢ (Pipeline.ΦA spec1 c : sProp 𝕄) := by
  unfold Pipeline.ΦA; rw [scopedRest1_eq]; unfold otherScoped; simp only [owns_whole]
  iintro ⟨⟨A0, A1, A2, A3, A4⟩, ⟨%d, S⟩, Hg⟩
  isplitr [Hg]
  · isplitl [A0]; · iexact A0
    isplitl [A1]; · iexact A1
    isplitl [A2]; · iexact A2
    isplitl [A3]; · iexact A3
    isplitl [A4]; · iexact A4
    iexists d; iexact S
  iexact Hg

/-- Before the first point the invariant is the class's. -/
theorem inv_zero (c : Dev nD) (n : ℕ) (h : n ≤ cfg1.N) (hz : n = 0) : inv V c n h = Pipeline.ΦA spec1 c := by
  subst hz; rfl

/-- After point `n` the accumulator holds what that point left. -/
theorem inv_succ (c : Dev nD) (n : ℕ) (hn : n < cfg1.N) :
    inv V c (n + 1) hn
      = iprop(otherScoped (F := F) c ∗ owns (c : Thread nD τ) accRef fullShare (partialAfter V c n hn) ∗ ∃ r, prngReg c r) := rfl

/-- Before any point but the first it holds what the point before left. -/
theorem inv_pos (c : Dev nD) (n : ℕ) (h : n ≤ cfg1.N) (hz : n ≠ 0) :
    inv V c n h
      = iprop(otherScoped (F := F) c
          ∗ owns (c : Thread nD τ) accRef fullShare (partialAfter V c (n - 1) (by omega)) ∗ ∃ r, prngReg c r) := by
  cases n with
  | zero => exact absurd rfl hz
  | succ n => rfl

/-- At any point the invariant gives the accumulator at SOME contents: what a point that resets it asks. -/
theorem inv_forget (c : Dev nD) (n : ℕ) (h : n ≤ cfg1.N) :
    inv V c n h
      ⊢ iprop(otherScoped (F := F) c ∗ (∃ d, owns (c : Thread nD τ) accRef fullShare d) ∗ ∃ r, prngReg c r) := by
  cases n with
  | zero => exact PhiA_split c
  | succ n =>
    rw [inv_succ]
    iintro ⟨Hs, Hacc, Hg⟩
    isplitl [Hs]; · iexact Hs
    isplitl [Hacc]; · iexists _; iexact Hacc
    iexact Hg

/-- The proof data of the product region on core `c`. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => outTile V c t
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem after_x (c : Dev nD) (t : Fin cfg1.N) : (dat V c).after 0 t = tile V c 0 t := by dsimp only [dat]
theorem after_w (c : Dev nD) (t : Fin cfg1.N) : (dat V c).after 1 t = tile V c 1 t := by dsimp only [dat]
theorem after_b (c : Dev nD) (t : Fin cfg1.N) : (dat V c).after 2 t = tile V c 2 t := by dsimp only [dat]
theorem after_out (c : Dev nD) (t : Fin cfg1.N) : (dat V c).after 3 t = outTile V c t := by dsimp only [dat]

/-- The invariant at a point's start, restated at the point's position. -/
theorem Phi_castSucc (c : Dev nD) (t : Fin cfg1.N) :
    (dat V c).Φ t.castSucc = inv V c t.val (Nat.le_of_lt t.isLt) := by
  dsimp only [dat]; simp only [Fin.coe_castSucc]

/-! ## What the inputs' buffers hold

An input's block index is a function of the grid point alone and the body never stores into an input's buffer, so at
every point the current buffer holds the window's tile there, whether the pipeline fetched it at that point or the
block index did not move since the point before (the bias row: fetched only where the innermost coordinate is 0). -/

theorem before_x (c : Dev nD) (t : Fin cfg1.N) (d) : (dat V c).before 0 t d = tile V c 0 t :=
  ((dat V c).before_in_eq_fetched 0 rfl live_x (fun _ _ _ => rfl)
      (fun t => by rw [after_x]; unfold Dat.blockOf tile; rw [A_eq]; try rfl) t d).trans
    (by unfold Dat.fetched Dat.blockOf tile; rw [A_eq]; try rfl)
theorem before_w (c : Dev nD) (t : Fin cfg1.N) (d) : (dat V c).before 1 t d = tile V c 1 t :=
  ((dat V c).before_in_eq_fetched 1 rfl live_w (fun _ _ _ => rfl)
      (fun t => by rw [after_w]; unfold Dat.blockOf tile; rw [A_eq]; try rfl) t d).trans
    (by unfold Dat.fetched Dat.blockOf tile; rw [A_eq]; try rfl)
theorem before_b (c : Dev nD) (t : Fin cfg1.N) (d) : (dat V c).before 2 t d = tile V c 2 t :=
  ((dat V c).before_in_eq_fetched 2 rfl live_b (fun _ _ _ => rfl)
      (fun t => by rw [after_b]; unfold Dat.blockOf tile; rw [A_eq]; try rfl) t d).trans
    (by unfold Dat.fetched Dat.blockOf tile; rw [A_eq]; try rfl)

/-! ## The body on whole memrefs, in its three cases

No grid point has its innermost coordinate both 0 and 15, so the two conditionals leave three cases. In each the
accumulator's last store covers it, so it ends at that store's payload; a load of it after a covering store reads the
payload stored. -/

/-- The all-zero offset of a rank-2 rectangle, however it is spelt. -/
theorem zero2 : (![0, 0] : Fin 2 → ℕ) = fun _ => 0 := by
  funext a; fin_cases a <;> rfl

set_option maxHeartbeats 1000000 in
/-- The body at a point whose innermost coordinate is 0, on whole memrefs: the accumulator, whatever it held, is reset
    to zero and read back, the tile product is added to it; the inputs and the output buffer are handed back as found. -/
theorem run_first (c : Dev nD) (i : grid1.Coords)
    (a3 : Memref sig .tc .vmem S2048x256 .f32) (h3 : a3.IsWhole) (a4 : Memref sig .tc .vmem S1024x256 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole)
    (hc1 : cond_first i) (hc2 : ¬ cond_last i)
    (x : Vec F S2048x256 .f32) (w : Vec F S1024x256 .bf16) (b : Vec F S1x1024 .f32) (o : Vec F S2048x1024 .f32)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ d, owns (c : Thread nD τ) a7 fullShare d)
        ∗ (iprop(owns (c : Thread nD τ) a3 fullShare x ∗ owns (c : Thread nD τ) a4 fullShare w ∗ owns (c : Thread nD τ) a5 fullShare b
              ∗ owns (c : Thread nD τ) a6 fullShare o
              ∗ owns (c : Thread nD τ) a7 fullShare (k1_pay2 x (k1_pay1 (F := F)) w)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := h3.eq_unread hf3; obtain rfl := h4.eq_unread hf4; obtain rfl := h5.eq_unread hf5; obtain rfl := h6.eq_unread hf6
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr
  swap; · iexact H7
  ipureintro
  rw [View.read_writes_eq_canon _ _ _ (fun y => ⟨_, List.mem_cons.mpr (Or.inl rfl), View.mem_set_unit_zero zero2 inb_S2048x1024_S2048x1024_0_0 y⟩),
    View.canon_cons_unit_zero (S := S2048x1024) zero2]
  sl_unfold_words
  simp only [View.readAt_eq_ld, h3.read_unread, h4.read_unread, View.ld_unit_zero (S := S2048x256) zero2,
    View.ld_unit_zero (S := S1024x256) zero2, View.readCov_unit_zero (S := S2048x1024) _ zero2]

set_option maxHeartbeats 1000000 in
/-- The body at a point whose innermost coordinate is neither 0 nor 15: the tile product is added to the accumulator
    as the point before left it; the inputs and the output buffer are handed back as found. -/
theorem run_mid (c : Dev nD) (i : grid1.Coords)
    (a3 : Memref sig .tc .vmem S2048x256 .f32) (h3 : a3.IsWhole) (a4 : Memref sig .tc .vmem S1024x256 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole)
    (hc1 : ¬ cond_first i) (hc2 : ¬ cond_last i)
    (x : Vec F S2048x256 .f32) (w : Vec F S1024x256 .bf16) (b : Vec F S1x1024 .f32) (o : Vec F S2048x1024 .f32)
    (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare acc
        ∗ (iprop(owns (c : Thread nD τ) a3 fullShare x ∗ owns (c : Thread nD τ) a4 fullShare w ∗ owns (c : Thread nD τ) a5 fullShare b
              ∗ owns (c : Thread nD τ) a6 fullShare o
              ∗ owns (c : Thread nD τ) a7 fullShare (k1_pay2 x acc w)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5; obtain rfl := h6.eq_unread hf6
  obtain rfl := h7.eq_unread hf7
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr
  swap; · iexact H7
  ipureintro
  rw [View.read_writes_eq_canon _ _ _ (fun y => ⟨_, List.mem_cons.mpr (Or.inl rfl), View.mem_set_unit_zero zero2 inb_S2048x1024_S2048x1024_0_0 y⟩),
    View.canon_cons_unit_zero (S := S2048x1024) zero2]
  sl_unfold_words
  simp only [View.readAt_eq_ld, h3.read_unread, h4.read_unread, h7.read_unread, View.ld_unit_zero (S := S2048x256) zero2,
    View.ld_unit_zero (S := S1024x256) zero2, View.ld_unit_zero (S := S2048x1024) zero2]

set_option maxHeartbeats 1000000 in
/-- The body at a point whose innermost coordinate is 15: the tile product is added to the accumulator, and the
    accumulator plus the bias row is stored over the output buffer, whatever it held. -/
theorem run_last (c : Dev nD) (i : grid1.Coords)
    (a3 : Memref sig .tc .vmem S2048x256 .f32) (h3 : a3.IsWhole) (a4 : Memref sig .tc .vmem S1024x256 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole)
    (hc1 : ¬ cond_first i) (hc2 : cond_last i)
    (x : Vec F S2048x256 .f32) (w : Vec F S1024x256 .bf16) (b : Vec F S1x1024 .f32) (o : Vec F S2048x1024 .f32)
    (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare acc
        ∗ (iprop(owns (c : Thread nD τ) a3 fullShare x ∗ owns (c : Thread nD τ) a4 fullShare w ∗ owns (c : Thread nD τ) a5 fullShare b
              ∗ owns (c : Thread nD τ) a6 fullShare (k1_pay3 (k1_pay2 x acc w) b)
              ∗ owns (c : Thread nD τ) a7 fullShare (k1_pay2 x acc w)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5; obtain rfl := h6.eq_unread hf6
  obtain rfl := h7.eq_unread hf7
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [View.read_writes_eq_canon _ _ _ (fun y => ⟨_, List.mem_cons.mpr (Or.inl rfl), View.mem_set_unit_zero zero2 inb_S2048x1024_S2048x1024_0_0 y⟩),
      View.canon_cons_unit_zero (S := S2048x1024) zero2]
    sl_unfold_words
    simp only [View.readAt_eq_ld, h3.read_unread, h4.read_unread, h5.read_unread, h7.read_unread,
      View.ld_unit_zero (S := S2048x256) zero2, View.ld_unit_zero (S := S1024x256) zero2, View.ld_unit_zero (S := S1x1024) zero2,
      View.ld_unit_zero (S := S2048x1024) zero2, View.readCov_unit_zero (S := S2048x1024) _ zero2]
  iexists _; isplitr
  swap; · iexact H7
  ipureintro
  sl_unfold_words
  rw [View.read_writes_eq_canon _ _ _ (fun y => ⟨_, List.mem_cons.mpr (Or.inl rfl), View.mem_set_unit_zero zero2 inb_S2048x1024_S2048x1024_0_0 y⟩),
    View.canon_cons_unit_zero (S := S2048x1024) zero2]
  simp only [View.readAt_eq_ld, h3.read_unread, h4.read_unread, h7.read_unread, View.ld_unit_zero (S := S2048x256) zero2,
    View.ld_unit_zero (S := S1024x256) zero2, View.ld_unit_zero (S := S2048x1024) zero2]

/-! ## The body at a generic grid point -/

/-- Each window's current staging memref at point `t`, and its wholeness. -/
abbrev sx (t : Fin cfg1.N) : Memref sig .tc .vmem S2048x256 .f32 := win1_0.stage (cfg1.slots t 0)
abbrev sw (t : Fin cfg1.N) : Memref sig .tc .vmem S1024x256 .bf16 := win1_1.stage (cfg1.slots t 1)
abbrev sb (t : Fin cfg1.N) : Memref sig .tc .vmem S1x1024 .f32 := win1_2.stage (cfg1.slots t 2)
abbrev so (t : Fin cfg1.N) : Memref sig .tc .vmem S2048x1024 .f32 := win1_3.stage (cfg1.slots t 3)

/-- What the body is called with at point `t`: the invariant, nothing owed, each window's current buffer. -/
def bodyPre (c : Dev nD) (t : Fin cfg1.N) : sProp 𝕄 :=
  iprop((dat V c).Φ t.castSucc ∗ (dat V c).owesAt () t.castSucc
    ∗ (∃ d, owns (c : Thread nD τ) (sx t) fullShare ((dat V c).before 0 t d))
    ∗ (∃ d, owns (c : Thread nD τ) (sw t) fullShare ((dat V c).before 1 t d))
    ∗ (∃ d, owns (c : Thread nD τ) (sb t) fullShare ((dat V c).before 2 t d))
    ∗ (∃ d, owns (c : Thread nD τ) (so t) fullShare ((dat V c).before 3 t d)))

/-- And what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their tiles. Where the innermost coordinate is 0 the accumulator
    comes at anything and leaves at the tile product added to zero; elsewhere it comes at what the point before left
    and leaves with the tile product added. Off the points whose innermost coordinate is 15 the output buffer is
    handed back untouched; at them it leaves at the accumulator plus the bias row. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = inv V c (t.val + 1) t.isLt from rfl, inv_succ, Phi_castSucc V c t]
  rw [show (dat V c).leavesExact 0 t = owns (c : Thread nD τ) (sx t) fullShare ((dat V c).after 0 t) from by
    unfold Dat.leavesExact; rw [live_x], after_x]
  rw [show (dat V c).leavesExact 1 t = owns (c : Thread nD τ) (sw t) fullShare ((dat V c).after 1 t) from by
    unfold Dat.leavesExact; rw [live_w], after_w]
  rw [show (dat V c).leavesExact 2 t = owns (c : Thread nD τ) (sb t) fullShare ((dat V c).after 2 t) from by
    unfold Dat.leavesExact; rw [live_b], after_b]
  have hN : t.val < 256 := lt_of_lt_of_eq t.isLt N_1
  by_cases h0 : t.val % 16 = 0
  · have h15 : t.val % 16 ≠ 15 := by omega
    rw [Dat.leavesExact_idle (dat V c) 3 t (idle_out t h15) (noflush_out t h15), partialAfter_first V c t h0]
    iintro ⟨HΦ, Ho, ⟨%d0, H0⟩, ⟨%d1, H1⟩, ⟨%d2, H2⟩, ⟨%d3, H3⟩⟩
    icases (inv_forget V c t.val (Nat.le_of_lt t.isLt)) $$ HΦ with ⟨Hs, Hacc, Hg⟩
    iapply (run_first c (grid1.coords t) _ _ _ _ _ _ _ _ _ _ ((cond_first_iff t).mpr h0) (fun h => h15 ((cond_last_iff t).mp h))
      (tile V c 0 t) (tile V c 1 t) (tile V c 2 t) _ Set.univ _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hs Hacc Hg]
    · isplitl [Hs]; · iexact Hs
      isplitl [Hacc]; · iexact Hacc
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [inv_pos V c _ _ hz, partialAfter_next V c t h0]
    by_cases h15 : t.val % 16 = 15
    · rw [show (dat V c).leavesExact 3 t = owns (c : Thread nD τ) (so t) fullShare ((dat V c).after 3 t) from by
        unfold Dat.leavesExact; rw [live_out t h15], after_out]
      unfold outTile
      rw [partialAfter_next V c t h0]
      iintro ⟨⟨Hs, Hacc, Hg⟩, Ho, ⟨%d0, H0⟩, ⟨%d1, H1⟩, ⟨%d2, H2⟩, ⟨%d3, H3⟩⟩
      iapply (run_last c (grid1.coords t) _ _ _ _ _ _ _ _ _ _ (fun h => h0 ((cond_first_iff t).mp h)) ((cond_last_iff t).mpr h15)
        (tile V c 0 t) (tile V c 1 t) (tile V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hs Hacc Hg]
      · isplitl [Hs]; · iexact Hs
        isplitl [Hacc]; · iexact Hacc
        iexact Hg
      isplitl [Ho]; · iexact Ho
      isplitl [H0]; · iexact H0
      isplitl [H1]; · iexact H1
      isplitl [H2]; · iexact H2
      iexact H3
    · rw [Dat.leavesExact_idle (dat V c) 3 t (idle_out t h15) (noflush_out t h15)]
      iintro ⟨⟨Hs, Hacc, Hg⟩, Ho, ⟨%d0, H0⟩, ⟨%d1, H1⟩, ⟨%d2, H2⟩, ⟨%d3, H3⟩⟩
      iapply (run_mid c (grid1.coords t) _ _ _ _ _ _ _ _ _ _ (fun h => h0 ((cond_first_iff t).mp h)) (fun h => h15 ((cond_last_iff t).mp h))
        (tile V c 0 t) (tile V c 1 t) (tile V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hs Hacc Hg]
      · isplitl [Hs]; · iexact Hs
        isplitl [Hacc]; · iexact Hacc
        iexact Hg
      isplitl [Ho]; · iexact Ho
      isplitl [H0]; · iexact H0
      isplitl [H1]; · iexact H1
      isplitl [H2]; · iexact H2
      iexists _; iexact H3

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives the class's back: the accumulator's contents are forgotten. -/
theorem inv_out (c : Dev nD) : (dat V c).Φ (Fin.last cfg1.N) ⊢ Pipeline.ΦA spec1 c := by
  have hN : cfg1.N = 256 := N_1
  rw [show (dat V c).Φ (Fin.last cfg1.N) = inv V c (Fin.last cfg1.N).val (Nat.le_of_lt_succ (Fin.last cfg1.N).isLt) from rfl,
    inv_pos V c _ _ (by rw [Fin.val_last]; omega)]
  refine BIBase.Entails.trans ?_ (PhiA_join c)
  iintro ⟨Ho, Hacc, Hg⟩
  isplitl [Ho]; · iexact Ho
  isplitl [Hacc]; · iexists _; iexact Hacc
  iexact Hg

/-- The body obligation of the product region at every grid point. -/
theorem obligation (c : Dev nD) : BodyObligation (dat (F := F) V c) (defs₀ (F := F)) Variants.none () Set.univ := fun t => by
  rw [bigSep_W1, bigSep_W1]
  exact sound_body V c t

end Cert.Kernel.ProductRegion

end
-- ==== Proof.Word.Program.lean ====
/-
  The whole program: reshape the input to 8192×4096 and the bias to 1×4096, run the masking region, run the product
  region, reshape the 8192×4096 result to 4×2048×4096.  This module follows the contents of every buffer that outlives a
  region from the launch to the return, shows that every weakly fair execution terminates with each such buffer at
  those contents, and reads off the arguments (unchanged) and the result (the reshaped output array of the product
  region, whose second operand is the output array of the masking region).
-/
import proofs.«138875_j48344151883970_1_alg».proof.Proof.Word.MaskRegion
import proofs.«138875_j48344151883970_1_alg».proof.Proof.Word.ProductRegion
import Idealize.ShloMosaic.Lib.Pipeline.RegionsLoop
import Idealize.ShloMosaic.Lib.Pipeline.FrameSuffix

set_option maxRecDepth 16384

noncomputable section

namespace Cert.Kernel.Program

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two reshapes (the masking region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the masking region: its arrays at what its write-backs leave, every other buffer as entered. -/
def W2 (c : Dev nD) : Valuation τ sig (Elt F) :=
  Pipeline.withArrays spec0 c (W1 m c) fun w => (MaskRegion.dat (V1 m) c).arrAt w cfg0.N
abbrev V2 : (c : Dev nD) → (b : Ref sig .tc) → Buf (Elt F) ((c : Thread nD τ).loc b) := fun c b => W2 m c b
/-- After the product region. -/
def W3 (c : Dev nD) : Valuation τ sig (Elt F) :=
  Pipeline.withArrays spec1 c (W2 m c) fun w => (ProductRegion.dat (V2 m) c).arrAt w cfg1.N
/-- After the last reshape (the return). -/
abbrev W4 : Dev nD → Valuation τ sig (Elt F) := fun c => StableHlo.after hostOps2 (W3 m c)

/-! ## What each region leaves, read at a reference -/

/-- After the masking region each of its arrays holds what its write-backs leave, -/
theorem W2_arr (c : Dev nD) (w : Fin cfg0.W) :
    W2 m c (Proc.devRef .tc (Pipeline.arrRef spec0 w)) = (MaskRegion.dat (V1 m) c).arrAt w cfg0.N := by
  unfold W2; exact Pipeline.withArrays_arr spec0 launch0.win.arr_inj c _ _ w
/-- and every other buffer what it held when the region was entered. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same of the product region. -/
theorem W3_arr (c : Dev nD) (w : Fin cfg1.W) :
    W3 m c (Proc.devRef .tc (Pipeline.arrRef spec1 w)) = (ProductRegion.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- The contents after the product region, read at the core's references. -/
abbrev V3 : (c : Dev nD) → (b : Ref sig .tc) → Buf (Elt F) ((c : Thread nD τ).loc b) := fun c b => W3 m c b

theorem arrays_after_mask (c : Dev nD) (w : Fin cfg0.W) :
    (MaskRegion.dat (V1 m) c).arrAt w cfg0.N = V2 m c (Pipeline.arrRef spec0 w) := (W2_arr m c w).symm
theorem rest_after_mask (c : Dev nD) : ∀ b, b ∉ Finset.univ.image (Pipeline.arrRef spec0) → V2 m c b = V1 m c b :=
  fun b hb => W2_of_ne m c b fun w e => hb (Finset.mem_image.mpr ⟨w, Finset.mem_univ _, e⟩)
theorem arrays_after_product (c : Dev nD) (w : Fin cfg1.W) :
    (ProductRegion.dat (V2 m) c).arrAt w cfg1.N = V3 m c (Pipeline.arrRef spec1 w) := (W3_arr m c w).symm
theorem rest_after_product (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both regions and what rides beside the buffers -/

/-- Neither region has a prefetched table. -/
abbrev adm : (p : Fin 2) → (pcfgs (F := F) p).Adm := fun p => (cfgs p).toPCfg_adm
/-- Each region's proof data, at the contents the region is entered from. -/
def pdats : (p : Fin 2) → (c : Dev nD) → Dat τ (Elt F) Unit ℕ (UR sig nD τ) ℕ (Pipeline.pin (pcfgs (F := F)) adm p) c
  | ⟨0, _⟩ => fun c => MaskRegion.dat (V1 m) c
  | ⟨1, _⟩ => fun c => ProductRegion.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A stretch of host operations from the contents W: it leaves every unscoped buffer at StableHlo.after of them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among those whose contents are followed. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the return: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The regions between the boundaries -/

set_option backward.isDefEq.respectTransparency.types false in
/-- The masking region: entered with every unscoped buffer at W1, left with them at W2.  Its three arrays are taken
    out of the unscoped buffers and put back at what the write-backs leave; the generator register goes into the
    region's invariant and comes back; nothing is owed. -/
def maskSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (MaskRegion.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrays_after_mask m c) (rest_after_mask m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered with every unscoped buffer at W2, left with them at W3.  Its invariant is its own (the
    accumulator's contents from the second point on): what the launch hands it makes the invariant before the first
    point, and the invariant after the last point gives that back. -/
def productSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ProductRegion.obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (ProductRegion.inv_in (V2 m) c)
    unfold Pipeline.ΦA
    iintro ⟨Hp, -, Hr⟩
    isplitl [Hr]; · iexact Hr
    iexact Hp
  hout c := by
    refine (ProductRegion.inv_out (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (arrays_after_product m c) (rest_after_product m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four segments -/

/-- The two reshapes from W0, the masking region, the product region, the last reshape from W3. -/
abbrev segs : List (Pipeline.Seg (pcfgs (F := F)) adm (pdats m) () defs₀ 𝒱₀ L lv) :=
  [ .host (hseg hostOps0 hostOps0_sub hostOps0_fresh (W0 m)),
    .region (maskSeg m),
    .region (productSeg m),
    .host (hseg hostOps2 hostOps2_sub hostOps2_fresh (W3 m)) ]
/-- The program is the run of those segments. -/
theorem main_run (c : Dev nD) : main (F := F) c = Pipeline.Seg.run (segs m) := (main_chain c).trans (by chain_rfl)

/-- At the return the generator register is grouped with the buffers, and what is owed (nothing) stands alone. -/
theorem regroup_at_return (c : Dev nD) :
    iprop(StableHlo.held (c : Thread nD τ) (Pipeline.ucRefs τ sig) (W4 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The run -/

set_option backward.isDefEq.respectTransparency.types false in
/-- From any memory with zero counters every weakly fair execution of the program terminates, nothing faulting, with
    every buffer that outlives the regions at the last boundary's contents. -/
theorem run : θ_run defs (onTc (τ := τ) (main (F := F))) ⟨m, fun _ => 0, ρ⟩ (fun r => ∀ c : Dev nD,
    ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => regroup_at_return m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## What the last boundary holds -/

theorem W4_arg0 (c : Dev nD) : W4 m c (Proc.devRef .tc main_arg0) = m ((c : Thread nD τ).loc main_arg0) := by
  show StableHlo.after hostOps2 (W3 m c) (Proc.devRef .tc main_arg0) = _
  after_results
  rw [W3_of_ne m c main_arg0 (by decide), W2_of_ne m c main_arg0 (by decide)]
  show StableHlo.after hostOps0 (W0 m c) (Proc.devRef .tc main_arg0) = _
  after_results
theorem W4_arg1 (c : Dev nD) : W4 m c (Proc.devRef .tc main_arg1) = m ((c : Thread nD τ).loc main_arg1) := by
  show StableHlo.after hostOps2 (W3 m c) (Proc.devRef .tc main_arg1) = _
  after_results
  rw [W3_of_ne m c main_arg1 (by decide)]
  refine (W2_arr m c 0).trans ?_
  rw [(MaskRegion.dat (V1 m) c).arrAt_in 0 rfl _, MaskRegion.A_eq]
  show StableHlo.after hostOps0 (W0 m c) (Proc.devRef .tc main_arg1) = _
  after_results
theorem W4_arg2 (c : Dev nD) : W4 m c (Proc.devRef .tc main_arg2) = m ((c : Thread nD τ).loc main_arg2) := by
  show StableHlo.after hostOps2 (W3 m c) (Proc.devRef .tc main_arg2) = _
  after_results
  rw [W3_of_ne m c main_arg2 (by decide), W2_of_ne m c main_arg2 (by decide)]
  show StableHlo.after hostOps0 (W0 m c) (Proc.devRef .tc main_arg2) = _
  after_results
theorem W4_arg3 (c : Dev nD) : W4 m c (Proc.devRef .tc main_arg3) = m ((c : Thread nD τ).loc main_arg3) := by
  show StableHlo.after hostOps2 (W3 m c) (Proc.devRef .tc main_arg3) = _
  after_results
  rw [W3_of_ne m c main_arg3 (by decide)]
  refine (W2_arr m c 1).trans ?_
  rw [(MaskRegion.dat (V1 m) c).arrAt_in 1 rfl _, MaskRegion.A_eq]
  show StableHlo.after hostOps0 (W0 m c) (Proc.devRef .tc main_arg3) = _
  after_results

/-- The result buffer: the product region's output array, reshaped. -/
theorem W4_result (c : Dev nD) :
    W4 m c (Proc.devRef .tc main_v4)
      = shapeCast S4x2048x4096 ((ProductRegion.dat (V2 m) c).arrAt 3 cfg1.N) shapeCasts_S8192x4096_S4x2048x4096 := by
  show StableHlo.after hostOps2 (W3 m c) (Proc.devRef .tc main_v4) = _
  after_results
  rw [show W3 m c (Proc.devRef .tc main_v3) = (ProductRegion.dat (V2 m) c).arrAt 3 cfg1.N from W3_arr m c 3]
  rfl

/-! ## What each region finds in its operands -/

theorem V1_weight (c : Dev nD) : V1 m c main_arg1 = m ((c : Thread nD τ).loc main_arg1) := by
  show StableHlo.after hostOps0 (W0 m c) (Proc.devRef .tc main_arg1) = _
  after_results
theorem V1_scores (c : Dev nD) : V1 m c main_arg3 = m ((c : Thread nD τ).loc main_arg3) := by
  show StableHlo.after hostOps0 (W0 m c) (Proc.devRef .tc main_arg3) = _
  after_results
theorem V2_rows (c : Dev nD) :
    V2 m c main_v0 = shapeCast S8192x4096 (m ((c : Thread nD τ).loc main_arg0)) shapeCasts_S4x2048x4096_S8192x4096 := by
  show W2 m c (Proc.devRef .tc main_v0) = _
  rw [W2_of_ne m c main_v0 (by decide)]
  show StableHlo.after hostOps0 (W0 m c) (Proc.devRef .tc main_v0) = _
  after_results
  rfl
theorem V2_bias (c : Dev nD) :
    V2 m c main_v1 = shapeCast S1x4096 (m ((c : Thread nD τ).loc main_arg2)) shapeCasts_S4096_S1x4096 := by
  show W2 m c (Proc.devRef .tc main_v1) = _
  rw [W2_of_ne m c main_v1 (by decide)]
  show StableHlo.after hostOps0 (W0 m c) (Proc.devRef .tc main_v1) = _
  after_results
  rfl
theorem V2_masked (c : Dev nD) : V2 m c main_v2 = (MaskRegion.dat (V1 m) c).arrAt 2 cfg0.N := W2_arr m c 2

/-! ## The frame, and the run with the result named -/

/-- The frame: the program terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg0 m c),
     (h c _ (mem_uc main_arg1 (by decide))).trans (W4_arg1 m c),
     (h c _ (mem_uc main_arg2 (by decide))).trans (W4_arg2 m c),
     (h c _ (mem_uc main_arg3 (by decide))).trans (W4_arg3 m c)⟩) (run m ρ)

/-- The run with the result named: the result buffer ends at the reshaped output array of the product region. -/
theorem run_result : θ_run defs (onTc (τ := τ) (main (F := F))) ⟨m, fun _ => 0, ρ⟩ (fun r => ∀ c : Dev nD,
      r.2.mem ((c.tc : Thread nD τ).loc main_v4)
        = shapeCast S4x2048x4096 ((ProductRegion.dat (V2 m) c).arrAt 3 cfg1.N) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W4_result m c),
     (h c _ (mem_uc main_arg0 (by decide))).trans (W4_arg0 m c),
     (h c _ (mem_uc main_arg1 (by decide))).trans (W4_arg1 m c),
     (h c _ (mem_uc main_arg2 (by decide))).trans (W4_arg2 m c),
     (h c _ (mem_uc main_arg3 (by decide))).trans (W4_arg3 m c)⟩) (run m ρ)

end Cert.Kernel.Program

end
-- ==== Proof.MaskRegion.lean ====
/-
  The masking region (the first kernel launch): grid point j takes rows 512·j … 512·j+511 of the weight matrix and
  rows 16·j … 16·j+15 of the score matrix, and leaves in the output tile the weight entry times the 0/1 mask of its
  32×32 block, the mask being "logistic(score) > 0.1".  This module states what each window's staging buffer holds
  after the body at each grid point, and proves the body's triple against it.
-/
import proofs.«138875_j48344151883970_1_alg».proof.Proof.Gen.KernelIdeal.Launch
import proofs.«138875_j48344151883970_1_alg».proof.Proof.Gen.KernelIdeal.Skeleton
import proofs.«138875_j48344151883970_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.MaskRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s tile at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512×4096 tile as a rectangle, and the 16 score rows grid point `i` reads. -/
abbrev wholeTile : Rect S512x4096 := Rect.unit (s := S512x4096) ![0, 0] S512x4096.size inb_S512x4096_S512x4096_0_0
abbrev scoreRows (i : grid0.Coords) : Rect S128x128 := Rect.unit (s := S128x128) (k0_off1 i) S16x128.size (k0_off1_inb i)

/-- What the body leaves in the output tile at grid point `i`, from the weight tile `w` and the whole score matrix `s`. -/
def maskedTile (i : grid0.Coords) (w : Vec F S512x4096 .f32) (s : Vec F S128x128 .f32) : Vec F S512x4096 .bf16 :=
  k0_pay1 (View.ld s (scoreRows i)) (View.ld w wholeTile)

/-- The proof data of the masking region on core `c`. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => maskedTile (grid0.coords t) (tile V c 0 t) (tile V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_w (c : Dev nD) (t : Fin cfg0.N) : (dat V c).after 0 t = tile V c 0 t := by dsimp only [dat]
theorem after_s (c : Dev nD) (t : Fin cfg0.N) : (dat V c).after 1 t = tile V c 1 t := by dsimp only [dat]
theorem after_out (c : Dev nD) (t : Fin cfg0.N) :
    (dat V c).after 2 t = maskedTile (grid0.coords t) (tile V c 0 t) (tile V c 1 t) := by dsimp only [dat]

/-! ## What the body finds in the input windows' staging buffers -/

/-- The weight window's current staging buffer holds the point's weight tile, fetched there or not. -/
theorem before_w (c : Dev nD) (t : Fin cfg0.N) (d) : (dat V c).before 0 t d = tile V c 0 t :=
  ((dat V c).before_in_eq_fetched 0 rfl (fun _ => rfl) (fun _ _ _ => rfl)
      (fun t => by rw [after_w]; unfold Dat.blockOf tile; rw [A_eq]; try rfl) t d).trans
    (by unfold Dat.fetched Dat.blockOf tile; rw [A_eq]; try rfl)

/-- The score window's staging buffer holds the whole score matrix at every point: it is fetched at the first
    point only, and its block index never moves. -/
theorem before_s (c : Dev nD) (t : Fin cfg0.N) (d) : (dat V c).before 1 t d = tile V c 1 t :=
  ((dat V c).before_in_eq_fetched 1 rfl (fun _ => rfl) (fun _ _ _ => rfl)
      (fun t => by rw [after_s]; unfold Dat.blockOf tile; rw [A_eq]; try rfl) t d).trans
    (by unfold Dat.fetched Dat.blockOf tile; rw [A_eq]; try rfl)

/-! ## The body's triple -/

/-- The whole-tile rectangle sits at the zero offsets. -/
theorem wholeTile_off : (![0, 0] : Fin S512x4096.rank → Nat) = fun _ => 0 := by
  funext a; fin_cases a <;> rfl

set_option maxHeartbeats 1000000 in
/-- The body on whole staging memrefs — the weight buffer reading `w`, the score buffer reading `s`, the output buffer at
    anything — runs to the continuation with the two inputs as they were and the output buffer reading
    `maskedTile i w s`: it loads the 16 score rows of the point and the whole weight tile, and its one store covers the
    output tile, so the buffer reads the stored value whatever it held before. -/
theorem sound_kernel (c : Dev nD) (E : Set ℕ) (i : grid0.Coords)
    (arg1 : Memref sig .tc .vmem S512x4096 .f32) (harg1 : arg1.IsWhole)
    (arg2 : Memref sig .tc .vmem S128x128 .f32) (harg2 : arg2.IsWhole)
    (arg3 : Memref sig .tc .vmem S512x4096 .bf16) (harg3 : arg3.IsWhole)
    (w : Vec F S512x4096 .f32) (s : Vec F S128x128 .f32) (K : PUnit → sProp 𝕄) :
    iprop(owns (c : Thread nD τ) arg1 fullShare w ∗ owns (c : Thread nD τ) arg2 fullShare s
        ∗ (∃ d, owns (c : Thread nD τ) arg3 fullShare d)
        ∗ (iprop(owns (c : Thread nD τ) arg1 fullShare w ∗ owns (c : Thread nD τ) arg2 fullShare s
            ∗ owns (c : Thread nD τ) arg3 fullShare (maskedTile i w s)) -∗ K ⟨⟩))
      ⊢ wp frame (wpE (defs₀ (F := F)) Variants.none c none) E (cc0__prune_kernel i arg1 harg1 arg2 harg2 arg3 harg3) K := by
  simp only [cc0__prune_kernel_eq_skeleton]; unfold cc0__prune_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
        View.mem_set_unit_zero wholeTile_off inb_S512x4096_S512x4096_0_0 y⟩),
    View.canon_unit_zero wholeTile_off inb_S512x4096_S512x4096_0_0]
  rfl

/-! ## The body obligation, at a generic grid point -/

/-- What the body is called with at grid point `t`: the invariant, what the core owes, and each window's current staging
    buffer at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns: the same at the next point, each buffer at what the body leaves. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any grid point: the two input buffers hold their tiles, so the body's triple applies; the invariant and
    what the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_w, before_s]
  rw [show (dat V c).Φ t.succ = (dat V c).Φ t.castSucc from rfl,
    show (dat V c).owesAt () t.succ = (dat V c).owesAt () t.castSucc from rfl,
    after_w, after_s, after_out]
  iintro ⟨HΦ, Ho, ⟨%d0, H0⟩, ⟨%d1, H1⟩, ⟨%d2, H2⟩⟩
  iapply (sound_kernel c Set.univ (grid0.coords t) _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the masking region at every grid point. -/
theorem obligation (c : Dev nD) : BodyObligation (dat (F := F) V c) (defs₀ (F := F)) Variants.none () Set.univ := by
  intro t
  rw [bigSep_W0, bigSep_W0]
  exact sound_body V c t

end Cert.KernelIdeal.MaskRegion

end
-- ==== Proof.ProductRegion.lean ====
/-
  The product region (the second kernel launch): grid point (i, j, k) takes the 2048×256 tile (i, k) of the input
  rows, the 1024×256 tile (j, k) of the masked weights and the 1×1024 tile j of the bias.  A 2048×1024 accumulator is
  carried from point to point: it is reset to zero where k = 0, the tile product is added at every point, and where
  k = 15 the accumulator plus the bias row is stored into the output tile (i, j), which is written back there and only
  there.  This module states what the accumulator holds after each grid point (a recursion over the points) and what the
  output tile holds at the points that write it back, and proves the body's triple against that.
-/
import proofs.«138875_j48344151883970_1_alg».proof.Proof.Gen.KernelIdeal.Launch
import proofs.«138875_j48344151883970_1_alg».proof.Proof.Gen.KernelIdeal.Skeleton
import proofs.«138875_j48344151883970_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.ProductRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s tile at grid point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid point `n`: the tile product added to zero where the point's k is 0 (n ≡ 0 mod 16),
    to what the point before left otherwise. -/
def partialAfter (c : Dev nD) : (n : ℕ) → n < cfg1.N → Vec F S2048x1024 .f32
  | 0, h => k1_pay2 (tile V c 0 ⟨0, h⟩) (k1_pay1 (F := F)) (tile V c 1 ⟨0, h⟩)
  | n + 1, h => k1_pay2 (tile V c 0 ⟨n + 1, h⟩)
      (if (n + 1) % 16 = 0 then k1_pay1 (F := F) else partialAfter c n (Nat.lt_of_succ_lt h)) (tile V c 1 ⟨n + 1, h⟩)

/-- At a point whose k is 0 the accumulator restarts from zero. -/
theorem partialAfter_first (c : Dev nD) (t : Fin cfg1.N) (h : t.val % 16 = 0) :
    partialAfter V c t.val t.isLt = k1_pay2 (tile V c 0 t) (k1_pay1 (F := F)) (tile V c 1 t) := by
  obtain ⟨n, hn⟩ := t
  cases n with
  | zero => rw [partialAfter]
  | succ n => rw [partialAfter, if_pos h]

/-- At any other point it continues from what the point before left. -/
theorem partialAfter_next (c : Dev nD) (t : Fin cfg1.N) (h : t.val % 16 ≠ 0) :
    partialAfter V c t.val t.isLt
      = k1_pay2 (tile V c 0 t) (partialAfter V c (t.val - 1) (Nat.lt_of_le_of_lt (Nat.sub_le _ _) t.isLt)) (tile V c 1 t) := by
  obtain ⟨n, hn⟩ := t
  cases n with
  | zero => exact absurd (Nat.zero_mod _) h
  | succ n => rw [partialAfter, if_neg h]; rfl

/-- What the body stores into the output tile at a point whose k is 15: the accumulator after the point plus the bias row. -/
def outTile (c : Dev nD) (t : Fin cfg1.N) : Vec F S2048x1024 .f32 :=
  k1_pay3 (partialAfter V c t.val t.isLt) (tile V c 2 t)

/-! ## Where the two conditionals hold, and where the output window is live -/

/-- The first conditional's test, over the grid coordinates: the innermost coordinate is 0. -/
abbrev cond_first (i : grid1.Coords) : Prop :=
  (Scalar.cmpi .ne (Scalar.extui (Scalar.cmpi .eq (BitVec.ofNat 32 (i 2).val) 0#32)) 0#32) = 1#1
/-- It holds exactly at the points whose innermost coordinate is 0. -/
theorem cond_first_iff : ∀ t : Fin cfg1.N, cond_first (grid1.coords t) ↔ t.val % 16 = 0 :=
  (by decide +kernel : ∀ t : Fin grid1.N, cond_first (grid1.coords t) ↔ t.val % 16 = 0)

/-- The second conditional's test: the innermost coordinate is 15. -/
abbrev cond_last (i : grid1.Coords) : Prop := k1_cond2 i = 1#1
/-- It holds exactly at the points whose innermost coordinate is 15. -/
theorem cond_last_iff : ∀ t : Fin cfg1.N, cond_last (grid1.coords t) ↔ t.val % 16 = 15 :=
  (by decide +kernel : ∀ t : Fin grid1.N, cond_last (grid1.coords t) ↔ t.val % 16 = 15)

/-- The inputs are never idle. -/
theorem live_x : ∀ i, cfg1.idle 0 i = false := fun _ => rfl
theorem live_w : ∀ i, cfg1.idle 1 i = false := fun _ => rfl
theorem live_b : ∀ i, cfg1.idle 2 i = false := fun _ => rfl
/-- The output window is idle exactly off the points whose innermost coordinate is 15, -/
theorem idle_out : ∀ t : Fin cfg1.N, t.val % 16 ≠ 15 → cfg1.idle 3 (grid1.coords t) = true :=
  (by decide +kernel : ∀ t : Fin grid1.N, t.val % 16 ≠ 15 → idle1 3 (grid1.coords t) = true)
theorem live_out : ∀ t : Fin cfg1.N, t.val % 16 = 15 → cfg1.idle 3 (grid1.coords t) = false :=
  (by decide +kernel : ∀ t : Fin grid1.N, t.val % 16 = 15 → idle1 3 (grid1.coords t) = false)
/-- and is not written back there. -/
theorem noflush_out : ∀ t : Fin cfg1.N, t.val % 16 ≠ 15 → (cfg1.win 3).flush t = false :=
  (by decide +kernel : ∀ t : Fin grid1.N, t.val % 16 ≠ 15 → win1_3.flush t = false)

/-- The region's invariant before grid point `n`: at the first point every scoped buffer that is no staging buffer of
    this launch at anything; afterwards the accumulator at `partialAfter` of the point before, the others at anything;
    the generator register at some state throughout. -/
abbrev accRef : Memref sig .tc .vmem S2048x1024 .f32 := Memref.whole cc1_scratch0

/-- The first launch's staging buffers, which this launch leaves alone: each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

def inv (c : Dev nD) : (n : ℕ) → n ≤ cfg1.N → sProp 𝕄
  | 0, _ => Pipeline.ΦA spec1 c
  | n + 1, hn => iprop(otherScoped (F := F) c ∗ owns (c : Thread nD τ) accRef fullShare (partialAfter V c n hn) ∗ ∃ r, prngReg c r)

/-! ## The invariant restated -/

/-- The class's invariant names the accumulator among the scoped buffers; here it is split off as a whole memref
    owned at some contents, beside the first launch's staging buffers and the generator register. -/
theorem PhiA_split (c : Dev nD) :
    (Pipeline.ΦA spec1 c : sProp 𝕄)
      ⊢ iprop(otherScoped (F := F) c ∗ (∃ d, owns (c : Thread nD τ) accRef fullShare d) ∗ ∃ r, prngReg c r) := by
  unfold Pipeline.ΦA; rw [scopedRest1_eq]; unfold otherScoped; simp only [owns_whole]
  iintro ⟨⟨A0, A1, A2, A3, A4, ⟨%f, S⟩⟩, Hg⟩
  isplitl [A0 A1 A2 A3 A4]
  · isplitl [A0]; · iexact A0
    isplitl [A1]; · iexact A1
    isplitl [A2]; · iexact A2
    isplitl [A3]; · iexact A3
    iexact A4
  isplitl [S]
  · iexists f; iexact S
  iexact Hg

/-- And put back: an accumulator owned at any contents is one of the scoped buffers at some contents. -/
theorem PhiA_join (c : Dev nD) :
    iprop(otherScoped (F := F) c ∗ (∃ d, owns (c : Thread nD τ) accRef fullShare d) ∗ ∃ r, prngReg c r)
      ⊢ (Pipeline.ΦA spec1 c : sProp 𝕄) := by
  unfold Pipeline.ΦA; rw [scopedRest1_eq]; unfold otherScoped; simp only [owns_whole]
  iintro ⟨⟨A0, A1, A2, A3, A4⟩, ⟨%d, S⟩, Hg⟩
  isplitr [Hg]
  · isplitl [A0]; · iexact A0
    isplitl [A1]; · iexact A1
    isplitl [A2]; · iexact A2
    isplitl [A3]; · iexact A3
    isplitl [A4]; · iexact A4
    iexists d; iexact S
  iexact Hg

/-- Before the first point the invariant is the class's. -/
theorem inv_zero (c : Dev nD) (n : ℕ) (h : n ≤ cfg1.N) (hz : n = 0) : inv V c n h = Pipeline.ΦA spec1 c := by
  subst hz; rfl

/-- After point `n` the accumulator holds what that point left. -/
theorem inv_succ (c : Dev nD) (n : ℕ) (hn : n < cfg1.N) :
    inv V c (n + 1) hn
      = iprop(otherScoped (F := F) c ∗ owns (c : Thread nD τ) accRef fullShare (partialAfter V c n hn) ∗ ∃ r, prngReg c r) := rfl

/-- Before any point but the first it holds what the point before left. -/
theorem inv_pos (c : Dev nD) (n : ℕ) (h : n ≤ cfg1.N) (hz : n ≠ 0) :
    inv V c n h
      = iprop(otherScoped (F := F) c
          ∗ owns (c : Thread nD τ) accRef fullShare (partialAfter V c (n - 1) (by omega)) ∗ ∃ r, prngReg c r) := by
  cases n with
  | zero => exact absurd rfl hz
  | succ n => rfl

/-- At any point the invariant gives the accumulator at SOME contents: what a point that resets it asks. -/
theorem inv_forget (c : Dev nD) (n : ℕ) (h : n ≤ cfg1.N) :
    inv V c n h
      ⊢ iprop(otherScoped (F := F) c ∗ (∃ d, owns (c : Thread nD τ) accRef fullShare d) ∗ ∃ r, prngReg c r) := by
  cases n with
  | zero => exact PhiA_split c
  | succ n =>
    rw [inv_succ]
    iintro ⟨Hs, Hacc, Hg⟩
    isplitl [Hs]; · iexact Hs
    isplitl [Hacc]; · iexists _; iexact Hacc
    iexact Hg

/-- The proof data of the product region on core `c`. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => outTile V c t
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem after_x (c : Dev nD) (t : Fin cfg1.N) : (dat V c).after 0 t = tile V c 0 t := by dsimp only [dat]
theorem after_w (c : Dev nD) (t : Fin cfg1.N) : (dat V c).after 1 t = tile V c 1 t := by dsimp only [dat]
theorem after_b (c : Dev nD) (t : Fin cfg1.N) : (dat V c).after 2 t = tile V c 2 t := by dsimp only [dat]
theorem after_out (c : Dev nD) (t : Fin cfg1.N) : (dat V c).after 3 t = outTile V c t := by dsimp only [dat]

/-- The invariant at a point's start, restated at the point's position. -/
theorem Phi_castSucc (c : Dev nD) (t : Fin cfg1.N) :
    (dat V c).Φ t.castSucc = inv V c t.val (Nat.le_of_lt t.isLt) := by
  dsimp only [dat]; simp only [Fin.coe_castSucc]

/-! ## What the inputs' buffers hold

An input's block index is a function of the grid point alone and the body never stores into an input's buffer, so at
every point the current buffer holds the window's tile there, whether the pipeline fetched it at that point or the
block index did not move since the point before (the bias row: fetched only where the innermost coordinate is 0). -/

theorem before_x (c : Dev nD) (t : Fin cfg1.N) (d) : (dat V c).before 0 t d = tile V c 0 t :=
  ((dat V c).before_in_eq_fetched 0 rfl live_x (fun _ _ _ => rfl)
      (fun t => by rw [after_x]; unfold Dat.blockOf tile; rw [A_eq]; try rfl) t d).trans
    (by unfold Dat.fetched Dat.blockOf tile; rw [A_eq]; try rfl)
theorem before_w (c : Dev nD) (t : Fin cfg1.N) (d) : (dat V c).before 1 t d = tile V c 1 t :=
  ((dat V c).before_in_eq_fetched 1 rfl live_w (fun _ _ _ => rfl)
      (fun t => by rw [after_w]; unfold Dat.blockOf tile; rw [A_eq]; try rfl) t d).trans
    (by unfold Dat.fetched Dat.blockOf tile; rw [A_eq]; try rfl)
theorem before_b (c : Dev nD) (t : Fin cfg1.N) (d) : (dat V c).before 2 t d = tile V c 2 t :=
  ((dat V c).before_in_eq_fetched 2 rfl live_b (fun _ _ _ => rfl)
      (fun t => by rw [after_b]; unfold Dat.blockOf tile; rw [A_eq]; try rfl) t d).trans
    (by unfold Dat.fetched Dat.blockOf tile; rw [A_eq]; try rfl)

/-! ## The body on whole memrefs, in its three cases

No grid point has its innermost coordinate both 0 and 15, so the two conditionals leave three cases. In each the
accumulator's last store covers it, so it ends at that store's payload; a load of it after a covering store reads the
payload stored. -/

/-- The all-zero offset of a rank-2 rectangle, however it is spelt. -/
theorem zero2 : (![0, 0] : Fin 2 → ℕ) = fun _ => 0 := by
  funext a; fin_cases a <;> rfl

set_option maxHeartbeats 1000000 in
/-- The body at a point whose innermost coordinate is 0, on whole memrefs: the accumulator, whatever it held, is reset
    to zero and read back, the tile product is added to it; the inputs and the output buffer are handed back as found. -/
theorem run_first (c : Dev nD) (i : grid1.Coords)
    (a3 : Memref sig .tc .vmem S2048x256 .f32) (h3 : a3.IsWhole) (a4 : Memref sig .tc .vmem S1024x256 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole)
    (hc1 : cond_first i) (hc2 : ¬ cond_last i)
    (x : Vec F S2048x256 .f32) (w : Vec F S1024x256 .bf16) (b : Vec F S1x1024 .f32) (o : Vec F S2048x1024 .f32)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ d, owns (c : Thread nD τ) a7 fullShare d)
        ∗ (iprop(owns (c : Thread nD τ) a3 fullShare x ∗ owns (c : Thread nD τ) a4 fullShare w ∗ owns (c : Thread nD τ) a5 fullShare b
              ∗ owns (c : Thread nD τ) a6 fullShare o
              ∗ owns (c : Thread nD τ) a7 fullShare (k1_pay2 x (k1_pay1 (F := F)) w)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := h3.eq_unread hf3; obtain rfl := h4.eq_unread hf4; obtain rfl := h5.eq_unread hf5; obtain rfl := h6.eq_unread hf6
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr
  swap; · iexact H7
  ipureintro
  rw [View.read_writes_eq_canon _ _ _ (fun y => ⟨_, List.mem_cons.mpr (Or.inl rfl), View.mem_set_unit_zero zero2 inb_S2048x1024_S2048x1024_0_0 y⟩),
    View.canon_cons_unit_zero (S := S2048x1024) zero2]
  sl_unfold_words
  simp only [View.readAt_eq_ld, h3.read_unread, h4.read_unread, View.ld_unit_zero (S := S2048x256) zero2,
    View.ld_unit_zero (S := S1024x256) zero2, View.readCov_unit_zero (S := S2048x1024) _ zero2]

set_option maxHeartbeats 1000000 in
/-- The body at a point whose innermost coordinate is neither 0 nor 15: the tile product is added to the accumulator
    as the point before left it; the inputs and the output buffer are handed back as found. -/
theorem run_mid (c : Dev nD) (i : grid1.Coords)
    (a3 : Memref sig .tc .vmem S2048x256 .f32) (h3 : a3.IsWhole) (a4 : Memref sig .tc .vmem S1024x256 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole)
    (hc1 : ¬ cond_first i) (hc2 : ¬ cond_last i)
    (x : Vec F S2048x256 .f32) (w : Vec F S1024x256 .bf16) (b : Vec F S1x1024 .f32) (o : Vec F S2048x1024 .f32)
    (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare acc
        ∗ (iprop(owns (c : Thread nD τ) a3 fullShare x ∗ owns (c : Thread nD τ) a4 fullShare w ∗ owns (c : Thread nD τ) a5 fullShare b
              ∗ owns (c : Thread nD τ) a6 fullShare o
              ∗ owns (c : Thread nD τ) a7 fullShare (k1_pay2 x acc w)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5; obtain rfl := h6.eq_unread hf6
  obtain rfl := h7.eq_unread hf7
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr
  swap; · iexact H7
  ipureintro
  rw [View.read_writes_eq_canon _ _ _ (fun y => ⟨_, List.mem_cons.mpr (Or.inl rfl), View.mem_set_unit_zero zero2 inb_S2048x1024_S2048x1024_0_0 y⟩),
    View.canon_cons_unit_zero (S := S2048x1024) zero2]
  sl_unfold_words
  simp only [View.readAt_eq_ld, h3.read_unread, h4.read_unread, h7.read_unread, View.ld_unit_zero (S := S2048x256) zero2,
    View.ld_unit_zero (S := S1024x256) zero2, View.ld_unit_zero (S := S2048x1024) zero2]

set_option maxHeartbeats 1000000 in
/-- The body at a point whose innermost coordinate is 15: the tile product is added to the accumulator, and the
    accumulator plus the bias row is stored over the output buffer, whatever it held. -/
theorem run_last (c : Dev nD) (i : grid1.Coords)
    (a3 : Memref sig .tc .vmem S2048x256 .f32) (h3 : a3.IsWhole) (a4 : Memref sig .tc .vmem S1024x256 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole)
    (hc1 : ¬ cond_first i) (hc2 : cond_last i)
    (x : Vec F S2048x256 .f32) (w : Vec F S1024x256 .bf16) (b : Vec F S1x1024 .f32) (o : Vec F S2048x1024 .f32)
    (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare acc
        ∗ (iprop(owns (c : Thread nD τ) a3 fullShare x ∗ owns (c : Thread nD τ) a4 fullShare w ∗ owns (c : Thread nD τ) a5 fullShare b
              ∗ owns (c : Thread nD τ) a6 fullShare (k1_pay3 (k1_pay2 x acc w) b)
              ∗ owns (c : Thread nD τ) a7 fullShare (k1_pay2 x acc w)) -∗ K ⟨⟩))
      ⊢ wp frame (wpE (defs₀ (F := F)) Variants.none c none) E (cc1__matmul_kernel i a3 h3 a4 h4 a5 h5 a6 h6 a7 h7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5; obtain rfl := h6.eq_unread hf6
  obtain rfl := h7.eq_unread hf7
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [View.read_writes_eq_canon _ _ _ (fun y => ⟨_, List.mem_cons.mpr (Or.inl rfl), View.mem_set_unit_zero zero2 inb_S2048x1024_S2048x1024_0_0 y⟩),
      View.canon_cons_unit_zero (S := S2048x1024) zero2]
    sl_unfold_words
    simp only [View.readAt_eq_ld, h3.read_unread, h4.read_unread, h5.read_unread, h7.read_unread,
      View.ld_unit_zero (S := S2048x256) zero2, View.ld_unit_zero (S := S1024x256) zero2, View.ld_unit_zero (S := S1x1024) zero2,
      View.ld_unit_zero (S := S2048x1024) zero2, View.readCov_unit_zero (S := S2048x1024) _ zero2]
  iexists _; isplitr
  swap; · iexact H7
  ipureintro
  sl_unfold_words
  rw [View.read_writes_eq_canon _ _ _ (fun y => ⟨_, List.mem_cons.mpr (Or.inl rfl), View.mem_set_unit_zero zero2 inb_S2048x1024_S2048x1024_0_0 y⟩),
    View.canon_cons_unit_zero (S := S2048x1024) zero2]
  simp only [View.readAt_eq_ld, h3.read_unread, h4.read_unread, h7.read_unread, View.ld_unit_zero (S := S2048x256) zero2,
    View.ld_unit_zero (S := S1024x256) zero2, View.ld_unit_zero (S := S2048x1024) zero2]

/-! ## The body at a generic grid point -/

/-- Each window's current staging memref at point `t`, and its wholeness. -/
abbrev sx (t : Fin cfg1.N) : Memref sig .tc .vmem S2048x256 .f32 := win1_0.stage (cfg1.slots t 0)
abbrev sw (t : Fin cfg1.N) : Memref sig .tc .vmem S1024x256 .bf16 := win1_1.stage (cfg1.slots t 1)
abbrev sb (t : Fin cfg1.N) : Memref sig .tc .vmem S1x1024 .f32 := win1_2.stage (cfg1.slots t 2)
abbrev so (t : Fin cfg1.N) : Memref sig .tc .vmem S2048x1024 .f32 := win1_3.stage (cfg1.slots t 3)

/-- What the body is called with at point `t`: the invariant, nothing owed, each window's current buffer. -/
def bodyPre (c : Dev nD) (t : Fin cfg1.N) : sProp 𝕄 :=
  iprop((dat V c).Φ t.castSucc ∗ (dat V c).owesAt () t.castSucc
    ∗ (∃ d, owns (c : Thread nD τ) (sx t) fullShare ((dat V c).before 0 t d))
    ∗ (∃ d, owns (c : Thread nD τ) (sw t) fullShare ((dat V c).before 1 t d))
    ∗ (∃ d, owns (c : Thread nD τ) (sb t) fullShare ((dat V c).before 2 t d))
    ∗ (∃ d, owns (c : Thread nD τ) (so t) fullShare ((dat V c).before 3 t d)))

/-- And what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their tiles. Where the innermost coordinate is 0 the accumulator
    comes at anything and leaves at the tile product added to zero; elsewhere it comes at what the point before left
    and leaves with the tile product added. Off the points whose innermost coordinate is 15 the output buffer is
    handed back untouched; at them it leaves at the accumulator plus the bias row. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = inv V c (t.val + 1) t.isLt from rfl, inv_succ, Phi_castSucc V c t]
  rw [show (dat V c).leavesExact 0 t = owns (c : Thread nD τ) (sx t) fullShare ((dat V c).after 0 t) from by
    unfold Dat.leavesExact; rw [live_x], after_x]
  rw [show (dat V c).leavesExact 1 t = owns (c : Thread nD τ) (sw t) fullShare ((dat V c).after 1 t) from by
    unfold Dat.leavesExact; rw [live_w], after_w]
  rw [show (dat V c).leavesExact 2 t = owns (c : Thread nD τ) (sb t) fullShare ((dat V c).after 2 t) from by
    unfold Dat.leavesExact; rw [live_b], after_b]
  have hN : t.val < 256 := lt_of_lt_of_eq t.isLt N_1
  by_cases h0 : t.val % 16 = 0
  · have h15 : t.val % 16 ≠ 15 := by omega
    rw [Dat.leavesExact_idle (dat V c) 3 t (idle_out t h15) (noflush_out t h15), partialAfter_first V c t h0]
    iintro ⟨HΦ, Ho, ⟨%d0, H0⟩, ⟨%d1, H1⟩, ⟨%d2, H2⟩, ⟨%d3, H3⟩⟩
    icases (inv_forget V c t.val (Nat.le_of_lt t.isLt)) $$ HΦ with ⟨Hs, Hacc, Hg⟩
    iapply (run_first c (grid1.coords t) _ _ _ _ _ _ _ _ _ _ ((cond_first_iff t).mpr h0) (fun h => h15 ((cond_last_iff t).mp h))
      (tile V c 0 t) (tile V c 1 t) (tile V c 2 t) _ Set.univ _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hs Hacc Hg]
    · isplitl [Hs]; · iexact Hs
      isplitl [Hacc]; · iexact Hacc
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [inv_pos V c _ _ hz, partialAfter_next V c t h0]
    by_cases h15 : t.val % 16 = 15
    · rw [show (dat V c).leavesExact 3 t = owns (c : Thread nD τ) (so t) fullShare ((dat V c).after 3 t) from by
        unfold Dat.leavesExact; rw [live_out t h15], after_out]
      unfold outTile
      rw [partialAfter_next V c t h0]
      iintro ⟨⟨Hs, Hacc, Hg⟩, Ho, ⟨%d0, H0⟩, ⟨%d1, H1⟩, ⟨%d2, H2⟩, ⟨%d3, H3⟩⟩
      iapply (run_last c (grid1.coords t) _ _ _ _ _ _ _ _ _ _ (fun h => h0 ((cond_first_iff t).mp h)) ((cond_last_iff t).mpr h15)
        (tile V c 0 t) (tile V c 1 t) (tile V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hs Hacc Hg]
      · isplitl [Hs]; · iexact Hs
        isplitl [Hacc]; · iexact Hacc
        iexact Hg
      isplitl [Ho]; · iexact Ho
      isplitl [H0]; · iexact H0
      isplitl [H1]; · iexact H1
      isplitl [H2]; · iexact H2
      iexact H3
    · rw [Dat.leavesExact_idle (dat V c) 3 t (idle_out t h15) (noflush_out t h15)]
      iintro ⟨⟨Hs, Hacc, Hg⟩, Ho, ⟨%d0, H0⟩, ⟨%d1, H1⟩, ⟨%d2, H2⟩, ⟨%d3, H3⟩⟩
      iapply (run_mid c (grid1.coords t) _ _ _ _ _ _ _ _ _ _ (fun h => h0 ((cond_first_iff t).mp h)) (fun h => h15 ((cond_last_iff t).mp h))
        (tile V c 0 t) (tile V c 1 t) (tile V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hs Hacc Hg]
      · isplitl [Hs]; · iexact Hs
        isplitl [Hacc]; · iexact Hacc
        iexact Hg
      isplitl [Ho]; · iexact Ho
      isplitl [H0]; · iexact H0
      isplitl [H1]; · iexact H1
      isplitl [H2]; · iexact H2
      iexists _; iexact H3

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives the class's back: the accumulator's contents are forgotten. -/
theorem inv_out (c : Dev nD) : (dat V c).Φ (Fin.last cfg1.N) ⊢ Pipeline.ΦA spec1 c := by
  have hN : cfg1.N = 256 := N_1
  rw [show (dat V c).Φ (Fin.last cfg1.N) = inv V c (Fin.last cfg1.N).val (Nat.le_of_lt_succ (Fin.last cfg1.N).isLt) from rfl,
    inv_pos V c _ _ (by rw [Fin.val_last]; omega)]
  refine BIBase.Entails.trans ?_ (PhiA_join c)
  iintro ⟨Ho, Hacc, Hg⟩
  isplitl [Ho]; · iexact Ho
  isplitl [Hacc]; · iexists _; iexact Hacc
  iexact Hg

/-- The body obligation of the product region at every grid point. -/
theorem obligation (c : Dev nD) : BodyObligation (dat (F := F) V c) (defs₀ (F := F)) Variants.none () Set.univ := fun t => by
  rw [bigSep_W1, bigSep_W1]
  exact sound_body V c t

end Cert.KernelIdeal.ProductRegion

end
-- ==== Proof.Program.lean ====
/-
  The whole program: reshape the input to 8192×4096 and the bias to 1×4096, run the masking region, run the product
  region, reshape the 8192×4096 result to 4×2048×4096.  This module follows the contents of every buffer that outlives a
  region from the launch to the return, shows that every weakly fair execution terminates with each such buffer at
  those contents, and reads off the arguments (unchanged) and the result (the reshaped output array of the product
  region, whose second operand is the output array of the masking region).
-/
import proofs.«138875_j48344151883970_1_alg».proof.Proof.MaskRegion
import proofs.«138875_j48344151883970_1_alg».proof.Proof.ProductRegion
import Idealize.ShloMosaic.Lib.Pipeline.RegionsLoop
import Idealize.ShloMosaic.Lib.Pipeline.FrameSuffix

set_option maxRecDepth 16384

noncomputable section

namespace Cert.KernelIdeal.Program

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two reshapes (the masking region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the masking region: its arrays at what its write-backs leave, every other buffer as entered. -/
def W2 (c : Dev nD) : Valuation τ sig (Elt F) :=
  Pipeline.withArrays spec0 c (W1 m c) fun w => (MaskRegion.dat (V1 m) c).arrAt w cfg0.N
abbrev V2 : (c : Dev nD) → (b : Ref sig .tc) → Buf (Elt F) ((c : Thread nD τ).loc b) := fun c b => W2 m c b
/-- After the product region. -/
def W3 (c : Dev nD) : Valuation τ sig (Elt F) :=
  Pipeline.withArrays spec1 c (W2 m c) fun w => (ProductRegion.dat (V2 m) c).arrAt w cfg1.N
/-- After the last reshape (the return). -/
abbrev W4 : Dev nD → Valuation τ sig (Elt F) := fun c => StableHlo.after hostOps2 (W3 m c)

/-! ## What each region leaves, read at a reference -/

/-- After the masking region each of its arrays holds what its write-backs leave, -/
theorem W2_arr (c : Dev nD) (w : Fin cfg0.W) :
    W2 m c (Proc.devRef .tc (Pipeline.arrRef spec0 w)) = (MaskRegion.dat (V1 m) c).arrAt w cfg0.N := by
  unfold W2; exact Pipeline.withArrays_arr spec0 launch0.win.arr_inj c _ _ w
/-- and every other buffer what it held when the region was entered. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same of the product region. -/
theorem W3_arr (c : Dev nD) (w : Fin cfg1.W) :
    W3 m c (Proc.devRef .tc (Pipeline.arrRef spec1 w)) = (ProductRegion.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- The contents after the product region, read at the core's references. -/
abbrev V3 : (c : Dev nD) → (b : Ref sig .tc) → Buf (Elt F) ((c : Thread nD τ).loc b) := fun c b => W3 m c b

theorem arrays_after_mask (c : Dev nD) (w : Fin cfg0.W) :
    (MaskRegion.dat (V1 m) c).arrAt w cfg0.N = V2 m c (Pipeline.arrRef spec0 w) := (W2_arr m c w).symm
theorem rest_after_mask (c : Dev nD) : ∀ b, b ∉ Finset.univ.image (Pipeline.arrRef spec0) → V2 m c b = V1 m c b :=
  fun b hb => W2_of_ne m c b fun w e => hb (Finset.mem_image.mpr ⟨w, Finset.mem_univ _, e⟩)
theorem arrays_after_product (c : Dev nD) (w : Fin cfg1.W) :
    (ProductRegion.dat (V2 m) c).arrAt w cfg1.N = V3 m c (Pipeline.arrRef spec1 w) := (W3_arr m c w).symm
theorem rest_after_product (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both regions and what rides beside the buffers -/

/-- Neither region has a prefetched table. -/
abbrev adm : (p : Fin 2) → (pcfgs (F := F) p).Adm := fun p => (cfgs p).toPCfg_adm
/-- Each region's proof data, at the contents the region is entered from. -/
def pdats : (p : Fin 2) → (c : Dev nD) → Dat τ (Elt F) Unit ℕ (UR sig nD τ) ℕ (Pipeline.pin (pcfgs (F := F)) adm p) c
  | ⟨0, _⟩ => fun c => MaskRegion.dat (V1 m) c
  | ⟨1, _⟩ => fun c => ProductRegion.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A stretch of host operations from the contents W: it leaves every unscoped buffer at StableHlo.after of them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among those whose contents are followed. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the return: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The regions between the boundaries -/

set_option backward.isDefEq.respectTransparency.types false in
/-- The masking region: entered with every unscoped buffer at W1, left with them at W2.  Its three arrays are taken
    out of the unscoped buffers and put back at what the write-backs leave; the generator register goes into the
    region's invariant and comes back; nothing is owed. -/
def maskSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (MaskRegion.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrays_after_mask m c) (rest_after_mask m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region: entered with every unscoped buffer at W2, left with them at W3.  Its invariant is its own (the
    accumulator's contents from the second point on): what the launch hands it makes the invariant before the first
    point, and the invariant after the last point gives that back. -/
def productSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ProductRegion.obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (ProductRegion.inv_in (V2 m) c)
    unfold Pipeline.ΦA
    iintro ⟨Hp, -, Hr⟩
    isplitl [Hr]; · iexact Hr
    iexact Hp
  hout c := by
    refine (ProductRegion.inv_out (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (arrays_after_product m c) (rest_after_product m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four segments -/

/-- The two reshapes from W0, the masking region, the product region, the last reshape from W3. -/
abbrev segs : List (Pipeline.Seg (pcfgs (F := F)) adm (pdats m) () defs₀ 𝒱₀ L lv) :=
  [ .host (hseg hostOps0 hostOps0_sub hostOps0_fresh (W0 m)),
    .region (maskSeg m),
    .region (productSeg m),
    .host (hseg hostOps2 hostOps2_sub hostOps2_fresh (W3 m)) ]
/-- The program is the run of those segments. -/
theorem main_run (c : Dev nD) : main (F := F) c = Pipeline.Seg.run (segs m) := (main_chain c).trans (by chain_rfl)

/-- At the return the generator register is grouped with the buffers, and what is owed (nothing) stands alone. -/
theorem regroup_at_return (c : Dev nD) :
    iprop(StableHlo.held (c : Thread nD τ) (Pipeline.ucRefs τ sig) (W4 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The run -/

set_option backward.isDefEq.respectTransparency.types false in
/-- From any memory with zero counters every weakly fair execution of the program terminates, nothing faulting, with
    every buffer that outlives the regions at the last boundary's contents. -/
theorem run : θ_run defs (onTc (τ := τ) (main (F := F))) ⟨m, fun _ => 0, ρ⟩ (fun r => ∀ c : Dev nD,
    ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => regroup_at_return m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## What the last boundary holds -/

theorem W4_arg0 (c : Dev nD) : W4 m c (Proc.devRef .tc main_arg0) = m ((c : Thread nD τ).loc main_arg0) := by
  show StableHlo.after hostOps2 (W3 m c) (Proc.devRef .tc main_arg0) = _
  after_results
  rw [W3_of_ne m c main_arg0 (by decide), W2_of_ne m c main_arg0 (by decide)]
  show StableHlo.after hostOps0 (W0 m c) (Proc.devRef .tc main_arg0) = _
  after_results
theorem W4_arg1 (c : Dev nD) : W4 m c (Proc.devRef .tc main_arg1) = m ((c : Thread nD τ).loc main_arg1) := by
  show StableHlo.after hostOps2 (W3 m c) (Proc.devRef .tc main_arg1) = _
  after_results
  rw [W3_of_ne m c main_arg1 (by decide)]
  refine (W2_arr m c 0).trans ?_
  rw [(MaskRegion.dat (V1 m) c).arrAt_in 0 rfl _, MaskRegion.A_eq]
  show StableHlo.after hostOps0 (W0 m c) (Proc.devRef .tc main_arg1) = _
  after_results
theorem W4_arg2 (c : Dev nD) : W4 m c (Proc.devRef .tc main_arg2) = m ((c : Thread nD τ).loc main_arg2) := by
  show StableHlo.after hostOps2 (W3 m c) (Proc.devRef .tc main_arg2) = _
  after_results
  rw [W3_of_ne m c main_arg2 (by decide), W2_of_ne m c main_arg2 (by decide)]
  show StableHlo.after hostOps0 (W0 m c) (Proc.devRef .tc main_arg2) = _
  after_results
theorem W4_arg3 (c : Dev nD) : W4 m c (Proc.devRef .tc main_arg3) = m ((c : Thread nD τ).loc main_arg3) := by
  show StableHlo.after hostOps2 (W3 m c) (Proc.devRef .tc main_arg3) = _
  after_results
  rw [W3_of_ne m c main_arg3 (by decide)]
  refine (W2_arr m c 1).trans ?_
  rw [(MaskRegion.dat (V1 m) c).arrAt_in 1 rfl _, MaskRegion.A_eq]
  show StableHlo.after hostOps0 (W0 m c) (Proc.devRef .tc main_arg3) = _
  after_results

/-- The result buffer: the product region's output array, reshaped. -/
theorem W4_result (c : Dev nD) :
    W4 m c (Proc.devRef .tc main_v4)
      = shapeCast S4x2048x4096 ((ProductRegion.dat (V2 m) c).arrAt 3 cfg1.N) shapeCasts_S8192x4096_S4x2048x4096 := by
  show StableHlo.after hostOps2 (W3 m c) (Proc.devRef .tc main_v4) = _
  after_results
  rw [show W3 m c (Proc.devRef .tc main_v3) = (ProductRegion.dat (V2 m) c).arrAt 3 cfg1.N from W3_arr m c 3]
  rfl

/-! ## What each region finds in its operands -/

theorem V1_weight (c : Dev nD) : V1 m c main_arg1 = m ((c : Thread nD τ).loc main_arg1) := by
  show StableHlo.after hostOps0 (W0 m c) (Proc.devRef .tc main_arg1) = _
  after_results
theorem V1_scores (c : Dev nD) : V1 m c main_arg3 = m ((c : Thread nD τ).loc main_arg3) := by
  show StableHlo.after hostOps0 (W0 m c) (Proc.devRef .tc main_arg3) = _
  after_results
theorem V2_rows (c : Dev nD) :
    V2 m c main_v0 = shapeCast S8192x4096 (m ((c : Thread nD τ).loc main_arg0)) shapeCasts_S4x2048x4096_S8192x4096 := by
  show W2 m c (Proc.devRef .tc main_v0) = _
  rw [W2_of_ne m c main_v0 (by decide)]
  show StableHlo.after hostOps0 (W0 m c) (Proc.devRef .tc main_v0) = _
  after_results
  rfl
theorem V2_bias (c : Dev nD) :
    V2 m c main_v1 = shapeCast S1x4096 (m ((c : Thread nD τ).loc main_arg2)) shapeCasts_S4096_S1x4096 := by
  show W2 m c (Proc.devRef .tc main_v1) = _
  rw [W2_of_ne m c main_v1 (by decide)]
  show StableHlo.after hostOps0 (W0 m c) (Proc.devRef .tc main_v1) = _
  after_results
  rfl
theorem V2_masked (c : Dev nD) : V2 m c main_v2 = (MaskRegion.dat (V1 m) c).arrAt 2 cfg0.N := W2_arr m c 2

/-! ## The frame, and the run with the result named -/

/-- The frame: the program terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg0 m c),
     (h c _ (mem_uc main_arg1 (by decide))).trans (W4_arg1 m c),
     (h c _ (mem_uc main_arg2 (by decide))).trans (W4_arg2 m c),
     (h c _ (mem_uc main_arg3 (by decide))).trans (W4_arg3 m c)⟩) (run m ρ)

/-- The run with the result named: the result buffer ends at the reshaped output array of the product region. -/
theorem run_result : θ_run defs (onTc (τ := τ) (main (F := F))) ⟨m, fun _ => 0, ρ⟩ (fun r => ∀ c : Dev nD,
      r.2.mem ((c.tc : Thread nD τ).loc main_v4)
        = shapeCast S4x2048x4096 ((ProductRegion.dat (V2 m) c).arrAt 3 cfg1.N) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W4_result m c),
     (h c _ (mem_uc main_arg0 (by decide))).trans (W4_arg0 m c),
     (h c _ (mem_uc main_arg1 (by decide))).trans (W4_arg1 m c),
     (h c _ (mem_uc main_arg2 (by decide))).trans (W4_arg2 m c),
     (h c _ (mem_uc main_arg3 (by decide))).trans (W4_arg3 m c)⟩) (run m ρ)

end Cert.KernelIdeal.Program

end
-- ==== Proof.Spec.lean ====
/-
  The mathematics both programs compute, as functions over literal shapes.

  A score s opens its 32×32 block of weights when logistic(s) exceeds the single-precision number nearest 0.1
  (`gate`).  The masked weight matrix is weight (o, i) times the gate of score (o / 32, i / 32) (`maskedWeights`).
  The linear layer on 8192 rows is, at (r, o), the sum over i of row (r, i) times masked weight (o, i), plus bias
  (0, o) (`linear`).  The whole function `pruned` is the same thing on the 4×2048×4096 input with the bias a vector.
-/
import Idealize.ShloMosaic.PureOps.Ideal
import Idealize.ShloMosaic.Lib.ValueIdx

noncomputable section

namespace Cert.Spec

open Idealize.ShloMosaic Idealize.ShloMosaic.ValueIdx

/-- The gate of a score: one where its logistic exceeds the threshold word, zero elsewhere. -/
def gate (s : EReal) : EReal :=
  if (Ideal.ofBits .f32 0x3DCCCCCD#32 : EReal) < Ideal.logistic s then 1 else 0

/-- The 32-block an index of a 4096-axis lies in. -/
def blockOf (a : Fin 4096) : Fin 128 := ⟨a.val / 32, by have := a.isLt; omega⟩

/-- The masked weight matrix. -/
def maskedWeights (w : FVec Ideal ⟨2, ![4096, 4096]⟩ .f32) (s : FVec Ideal ⟨2, ![128, 128]⟩ .f32) :
    FVec Ideal ⟨2, ![4096, 4096]⟩ .bf16 :=
  fun j => w j * gate (s (ix2 (blockOf (j 0)) (blockOf (j 1))))

/-- The linear layer on 8192 rows, its weight matrix indexed (output, input), its bias a 1×4096 row. -/
def linear (x : FVec Ideal ⟨2, ![8192, 4096]⟩ .f32) (wm : FVec Ideal ⟨2, ![4096, 4096]⟩ .bf16)
    (b : FVec Ideal ⟨2, ![1, 4096]⟩ .f32) : FVec Ideal ⟨2, ![8192, 4096]⟩ .f32 :=
  fun j => (∑ k : Fin 4096, x (ix2 (j 0) k) * wm (ix2 (j 1) k)) + b (ix2 (0 : Fin 1) (j 1))

/-- The pruned linear layer on the 4×2048×4096 input. -/
def pruned (x : FVec Ideal ⟨3, ![4, 2048, 4096]⟩ .f32) (w : FVec Ideal ⟨2, ![4096, 4096]⟩ .f32)
    (b : FVec Ideal ⟨1, ![4096]⟩ .f32) (s : FVec Ideal ⟨2, ![128, 128]⟩ .f32) : FVec Ideal ⟨3, ![4, 2048, 4096]⟩ .f32 :=
  fun i => (∑ k : Fin 4096, x (ix3 (i 0) (i 1) k) * (w (ix2 (i 2) k) * gate (s (ix2 (blockOf (i 2)) (blockOf k)))))
    + b (ix1 (i 2))

end Cert.Spec

end
-- ==== Proof.MaskValue.lean ====
/-
  The masked weight matrix as the masking region leaves it: every 512-row tile of the output array is written back once,
  the tiles cover the array, and the entry (o, i) of the tile at grid point j = o / 512 is weight (o, i) times the gate
  of score (o / 32, i / 32) — row o of the tile reads score row 16·j + (o mod 512) / 32 = o / 32.

  In order: one lane of the mask is the gate of its score (the comparison's bit, zero-extended and converted, is 1 or 0);
  the body's product at an entry of the tile, read through the two reshapes and the broadcast that spread each of the
  16×128 mask lanes over a 32×32 block; the same with the tile's 16 score rows placed in the whole score matrix; what a
  grid point writes back as its block of the masked weight matrix; the cover of the array by the eight row blocks.
-/
import proofs.«138875_j48344151883970_1_alg».proof.Proof.MaskRegion
import proofs.«138875_j48344151883970_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MaskValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- One lane of the mask: the comparison's bit, widened and converted, is the gate of the score. -/
theorem gate_lane (s : EReal) :
    FloatOps.sitofp (F := Ideal) .f32
        ((FloatOps.cmpf (F := Ideal) (φ := .f32) .ogt (FloatOps.logistic (F := Ideal) (φ := .f32) s)
          (Scalar.ofBits (F := Ideal) .f32 0x3DCCCCCD#32)).setWidth 32)
      = Cert.Spec.gate s := by
  show (((((Ideal.cmp .ogt (Ideal.logistic s) (Ideal.ofBits .f32 0x3DCCCCCD#32)).setWidth 32).toInt : ℤ) : ℝ) : EReal) = _
  unfold Cert.Spec.gate Ideal.cmp
  by_cases h : (Ideal.ofBits .f32 0x3DCCCCCD#32 : EReal) < Ideal.logistic s
  · rw [if_pos h]
    simp only [h, decide_true]
    rw [show (BitVec.setWidth 32 (BitVec.ofBool true)).toInt = 1 from by decide, Int.cast_one, EReal.coe_one]
  · rw [if_neg h]
    simp only [h, decide_false]
    rw [show (BitVec.setWidth 32 (BitVec.ofBool false)).toInt = 0 from by decide, Int.cast_zero, EReal.coe_zero]

/-- The mask vector at a lane. -/
theorem mask_apply (v : Vec Ideal S16x128 .f32) (j : S16x128.Idx) :
    (sitofp .f32 (extui 32 (cmpf .ogt (logistic v) (broadcast S16x128 (Scalar.ofBits (F := Ideal) .f32 0x3DCCCCCD#32))) natLt_1_32) : FVec Ideal S16x128 .f32) j
      = Cert.Spec.gate (v j) := gate_lane (v j)

/-- The body's payload at row r = 32·a + b, column 32·d + e of the tile: the weight there times the gate of the loaded score (a, d). -/
theorem pay_apply (v3 : Vec Ideal S16x128 .f32) (v14 : Vec Ideal S512x4096 .f32) (r : Fin 512) (col : Fin 4096) :
    k0_pay1 v3 v14 (ix2 r col)
      = v14 (ix2 r col) * Cert.Spec.gate (v3 (ix2 (⟨r.val / 32, by have := r.isLt; omega⟩ : Fin 16) (⟨col.val / 32, by have := col.isLt; omega⟩ : Fin 128))) := by
  have hr := r.isLt
  have hc := col.isLt
  unfold k0_pay1
  rw [mulf_apply, truncf_apply]
  congr 1
  refine (shapeCast_apply _ shapeCasts_S16x32x128x32_S512x4096 (ix2 r col)
    (ix4 (⟨r.val / 32, by omega⟩ : Fin 16) (⟨r.val % 32, by omega⟩ : Fin 32) (⟨col.val / 32, by omega⟩ : Fin 128) (⟨col.val % 32, by omega⟩ : Fin 32)) ?_).trans ?_
  · rw [Shape.rowMajor_val_four, Shape.rowMajor_val_two]
    show (((r.val / 32) * 32 + r.val % 32) * 128 + col.val / 32) * 32 + col.val % 32 = r.val * 4096 + col.val
    omega
  refine (broadcastTo_apply _ broadcasts_S16x1x128x1_S16x32x128x32 _
    (ix4 (⟨r.val / 32, by omega⟩ : Fin 16) (0 : Fin 1) (⟨col.val / 32, by omega⟩ : Fin 128) (0 : Fin 1)) ?_).trans ?_
  · intro a
    match a with
    | ⟨0, _⟩ => rfl
    | ⟨1, _⟩ => rfl
    | ⟨2, _⟩ => rfl
    | ⟨3, _⟩ => rfl
  rw [shapeCast_self]
  refine (shapeCast_apply _ shapeCasts_S16x128_S16x1x128x1 _
    (ix2 (⟨r.val / 32, by omega⟩ : Fin 16) (⟨col.val / 32, by omega⟩ : Fin 128)) ?_).trans ?_
  · rw [Shape.rowMajor_val_four, Shape.rowMajor_val_two]
    show (r.val / 32) * 128 + col.val / 32 = (((r.val / 32) * 1 + 0) * 128 + col.val / 32) * 1 + 0
    omega
  rw [truncf_apply]
  exact mask_apply v3 _

/-- The zero offsets of a whole-tile access, as the constant function. -/
theorem zero_offsets : (![0, 0] : Fin 2 → Nat) = fun _ => 0 := funext fun a => by fin_cases a <;> rfl

/-- What the body leaves at entry y of the output tile at grid point i: the weight tile's entry times the gate of score
    row 16·i + y₀ / 32, column y₁ / 32 of the whole score matrix. -/
theorem maskedTile_apply (i : grid0.Coords) (w : Vec Ideal S512x4096 .f32) (s : Vec Ideal S128x128 .f32) (y : S512x4096.Idx) :
    MaskRegion.maskedTile i w s y
      = w y * Cert.Spec.gate (s (ix2 (⟨16 * (i 0).val + (y 0).val / 32, by have := (i 0).isLt; have : (i 0).val < 8 := this; have := idx2_lt0 y; omega⟩ : Fin 128)
          (⟨(y 1).val / 32, by have := idx2_lt1 y; omega⟩ : Fin 128))) := by
  obtain ⟨r, col, rfl⟩ : ∃ (r : Fin 512) (col : Fin 4096), y = ix2 r col := ⟨y 0, y 1, eq_ix2 y⟩
  have hi : (i 0).val < 8 := (i 0).isLt
  have hr := r.isLt
  have hc := col.isLt
  unfold MaskRegion.maskedTile
  rw [View.ld_unit_zero (S := S512x4096) zero_offsets]
  refine (pay_apply _ w r col).trans ?_
  congr 2
  show s ((MaskRegion.scoreRows i).idx _) = s _
  congr 1
  funext a
  apply Fin.ext
  match a with
  | ⟨0, _⟩ =>
    show (k0_off1 i) 0 + 1 * (r.val / 32) = 16 * (i 0).val + r.val / 32
    rw [k0_off1_eq]
    show 16 * (i 0).val + 1 * (r.val / 32) = _
    omega
  | ⟨1, _⟩ =>
    show (k0_off1 i) 1 + 1 * (col.val / 32) = col.val / 32
    rw [k0_off1_eq]
    show 0 + 1 * (col.val / 32) = _
    omega

/-- The printed index maps over the grid: at point t the weight and output blocks are block (t, 0), the score block is
    block (0, 0), and the grid coordinate is t. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ ((grid0.coords t) 0).val = t.val :=
  (by decide +kernel : ∀ t : Fin grid0.N, _)

/-- What point t writes back is block t of the masked weight matrix of the arrays the region found. -/
theorem flushed_eq (c : Dev nD) (t : Fin cfg0.N) :
    (MaskRegion.dat (F := Ideal) V c).flushed 2 t
      = ((cfg0.win 2).blk t).view.read (Elt Ideal) (Cert.Spec.maskedWeights (V c main_arg1) (V c main_arg3)) := by
  show (cfg0.win 2).cut (grid0.coords t) ((MaskRegion.dat (F := Ideal) V c).after 2 t) = _
  rw [MaskRegion.after_out]
  obtain ⟨e00, e01, e10, e11, e20, e21, eg⟩ := index_facts t
  funext y
  have hy0 : (y 0).val < 512 := (y 0).isLt
  have hy1 : (y 1).val < 4096 := (y 1).isLt
  show MaskRegion.maskedTile (grid0.coords t) (MaskRegion.tile V c 0 t) (MaskRegion.tile V c 1 t) y
    = Cert.Spec.maskedWeights (V c main_arg1) (V c main_arg3) (((cfg0.win 2).blk t).view.emb y)
  refine (maskedTile_apply (grid0.coords t) (MaskRegion.tile V c 0 t) (MaskRegion.tile V c 1 t) y).trans ?_
  unfold Cert.Spec.maskedWeights
  refine congrArg₂ (fun a b : EReal => a * b) ?_ (congrArg Cert.Spec.gate ?_)
  · -- the weight window and the output window have the same index map
    show V c main_arg1 (((cfg0.win 0).blk t).view.emb y) = V c main_arg1 (((cfg0.win 2).blk t).view.emb y)
    rfl
  · show V c main_arg3 (((cfg0.win 1).blk t).view.emb _) = V c main_arg3 _
    congr 1
    funext a
    apply Fin.ext
    match a with
    | ⟨0, _⟩ =>
      show win0_1.index t (0 : Fin 2) * 128 + 1 * (16 * ((grid0.coords t) 0).val + (y 0).val / 32)
        = (win0_2.index t (0 : Fin 2) * 512 + 1 * (y 0).val) / 32
      rw [e10, e20, eg]
      omega
    | ⟨1, _⟩ =>
      show win0_1.index t (1 : Fin 2) * 128 + 1 * ((y 1).val / 32) = (win0_2.index t (1 : Fin 2) * 4096 + 1 * (y 1).val) / 32
      rw [e11, e21]
      omega

/-- An index of the output array lies in point t's block exactly when each coordinate lies in the block's range on its axis. -/
theorem mem_block (t : Fin cfg0.N) (i : S4096x4096.Idx) :
    i ∈ ((cfg0.win 2).blk t).view.set
      ↔ ∀ a : Fin 2, win0_2.index t a * S512x4096.size a ≤ (i a).val ∧ (i a).val < win0_2.index t a * S512x4096.size a + S512x4096.size a := by
  show i ∈ ((View.whole main_v2).slice (win0_2.rect t)).set ↔ _
  rw [View.set_slice_whole, Rect.mem_set_unit]
  exact Iff.rfl

/-- The eight row blocks cover the output array: row r lies in the block of point r / 512. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 8 := N_0
  have ht : (i 0).val / 512 < cfg0.N := by rw [hN]; omega
  obtain ⟨_, _, _, _, e20, e21, _⟩ := index_facts ⟨(i 0).val / 512, ht⟩
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e20]
    show (i 0).val / 512 * 512 ≤ (i 0).val ∧ (i 0).val < (i 0).val / 512 * 512 + 512
    omega
  | ⟨1, _⟩ =>
    show win0_2.index ⟨(i 0).val / 512, ht⟩ (1 : Fin 2) * 4096 ≤ (i 1).val
      ∧ (i 1).val < win0_2.index ⟨(i 0).val / 512, ht⟩ (1 : Fin 2) * 4096 + 4096
    rw [e21]
    omega

/-- After the masking region its output array holds the masked weight matrix of the weight and score arrays it found. -/
theorem masked_eq (c : Dev nD) :
    (MaskRegion.dat (F := Ideal) V c).arrAt 2 cfg0.N = Cert.Spec.maskedWeights (V c main_arg1) (V c main_arg3) :=
  (MaskRegion.dat (F := Ideal) V c).arrAt_eq_of_cover 2 (Cert.Spec.maskedWeights (V c main_arg1) (V c main_arg3))
    (fun t _ => flushed_eq V c t) (fun i => covered i)

end Cert.KernelIdeal.MaskValue

end
-- ==== Proof.ProductValue.Sum.lean ====
/-
  The sum over 4096 input columns, cut into 16 runs of 256 columns.

  The product region adds one run per grid point, so its accumulator after the point with k = κ holds the runs
  0 … κ.  This module has the two facts about sums in a commutative additive monoid that the accumulator's value
  rests on: the whole sum is the sum of its 16 runs, and a running total that starts at the first run and adds one
  run per step is the sum of the runs so far.
-/
import Mathlib.Algebra.BigOperators.Fin
import Mathlib.Algebra.BigOperators.Group.Finset.Basic

namespace Cert.KernelIdeal.ProductValue

open Finset

variable {M : Type*} [AddCommMonoid M]

/-- The part of a sum over 4096 columns that falls into run `κ`: columns 256 κ … 256 κ + 255 (nothing when the run
    lies past the last column). -/
def blockSum (f : Fin 4096 → M) (κ : ℕ) : M :=
  ∑ r : Fin 256, if h : 256 * κ + r.val < 4096 then f ⟨256 * κ + r.val, h⟩ else 0

/-- For one of the 16 runs every column is a column of the array. -/
theorem blockSum_of_lt (f : Fin 4096 → M) {κ : ℕ} (hκ : κ < 16) :
    blockSum f κ = ∑ r : Fin 256, f ⟨256 * κ + r.val, by have := r.isLt; omega⟩ :=
  Finset.sum_congr rfl fun r _ => dif_pos (by have := r.isLt; omega)

/-- The whole sum is the sum of its 16 runs. -/
theorem sum_eq_blockSums (f : Fin 4096 → M) : ∑ k : Fin 4096, f k = ∑ κ ∈ range 16, blockSum f κ := by
  -- `f` continued by zero past the last column
  let g : ℕ → M := fun k => if h : k < 4096 then f ⟨k, h⟩ else 0
  have hf : ∀ k : Fin 4096, f k = g k.val := fun k => by
    show f k = if h : k.val < 4096 then f ⟨k.val, h⟩ else 0
    rw [dif_pos k.isLt]
  have hb : ∀ κ, blockSum f κ = ∑ r ∈ range 256, g (256 * κ + r) := fun κ =>
    (Fin.sum_univ_eq_sum_range (fun r => g (256 * κ + r)) 256)
  have hs : ∀ n, ∑ k ∈ range (256 * n), g k = ∑ κ ∈ range n, ∑ r ∈ range 256, g (256 * κ + r) := by
    intro n
    induction n with
    | zero => rfl
    | succ n ih =>
      rw [Nat.mul_succ, Finset.sum_range_add, ih]
      exact (Finset.sum_range_succ (fun κ => ∑ r ∈ range 256, g (256 * κ + r)) n).symm
  calc ∑ k : Fin 4096, f k = ∑ k : Fin 4096, g k.val := Finset.sum_congr rfl fun k _ => hf k
    _ = ∑ k ∈ range (256 * 16), g k := Fin.sum_univ_eq_sum_range g 4096
    _ = ∑ κ ∈ range 16, blockSum f κ := by rw [hs]; exact Finset.sum_congr rfl fun κ _ => (hb κ).symm

/-- The runs up to and including run 0 are run 0. -/
theorem sum_range_one_blockSum (f : Fin 4096 → M) : ∑ κ ∈ range (0 + 1), blockSum f κ = 0 + blockSum f 0 := by
  rw [Finset.sum_range_succ, Finset.sum_range_zero]

end Cert.KernelIdeal.ProductValue
-- ==== Proof.ProductValue.Tile.lean ====
/-
  What the product region's three payloads hold at one entry, at the ideal values.

  The reset payload is zero everywhere.  The step payload at entry (p, q) is the accumulator's entry plus the product of
  row p of the 2048×256 row tile with row q of the 1024×256 weight tile, a sum over the 256 shared columns (the
  narrowing of the rows to the weights' format changes nothing on extended reals, and the casts to the same shape are
  the identity).  The closing payload at (p, q) is the accumulator's entry plus the bias tile's entry (0, q).
-/
import proofs.«138875_j48344151883970_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProductValue

open Idealize.ShloMosaic Idealize.ShloMosaic.ValueIdx
open Cert.KernelIdeal Cert.KernelIdeal.Gen

/-! ## The tile product's operand indices, axis by axis -/

theorem lhs_tile_0 (i : S2048x1024.Idx) (k : dot_S2048x256_S1024x256_S2048x1024_1_1_0_0_n_n.contr.Idx) :
    (dot_S2048x256_S1024x256_S2048x1024_1_1_0_0_n_n.lhsIdx i k 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_tile_1 (i : S2048x1024.Idx) (k : dot_S2048x256_S1024x256_S2048x1024_1_1_0_0_n_n.contr.Idx) :
    (dot_S2048x256_S1024x256_S2048x1024_1_1_0_0_n_n.lhsIdx i k 1).val = (k ⟨0, by decide⟩).val :=
  dot_S2048x256_S1024x256_S2048x1024_1_1_0_0_n_n.lhsIdx_val_of_single rfl i k
theorem rhs_tile_0 (i : S2048x1024.Idx) (k : dot_S2048x256_S1024x256_S2048x1024_1_1_0_0_n_n.contr.Idx) :
    (dot_S2048x256_S1024x256_S2048x1024_1_1_0_0_n_n.rhsIdx i k 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_tile_1 (i : S2048x1024.Idx) (k : dot_S2048x256_S1024x256_S2048x1024_1_1_0_0_n_n.contr.Idx) :
    (dot_S2048x256_S1024x256_S2048x1024_1_1_0_0_n_n.rhsIdx i k 1).val = (k ⟨0, by decide⟩).val :=
  dot_S2048x256_S1024x256_S2048x1024_1_1_0_0_n_n.rhsIdx_val_of_single rfl i k

/-- The tile product into the zero accumulator, at entry (p, q): row p of the left tile times row q of the right
    tile, summed over their 256 columns. -/
theorem tileProduct_apply (x : FVec Ideal S2048x256 .bf16) (w : FVec Ideal S1024x256 .bf16) (p : Fin 2048) (q : Fin 1024) :
    matmul dot_S2048x256_S1024x256_S2048x1024_1_1_0_0_n_n none x w (constant (F := Ideal) S2048x1024 .f32 0x00000000#32) (ix2 p q)
      = ∑ r : Fin 256, x (ix2 p r) * w (ix2 q r) := by
  simp only [matmul]
  rw [Ideal.matmul_constant_zero_apply, ← Equiv.sum_comp (ValueIdx.contrEquiv1 dot_S2048x256_S1024x256_S2048x1024_1_1_0_0_n_n 256 rfl rfl).symm]
  refine Finset.sum_congr rfl fun r _ => ?_
  have hr := ValueIdx.contrEquiv1_symm_val dot_S2048x256_S1024x256_S2048x1024_1_1_0_0_n_n 256 rfl rfl r
  have el : dot_S2048x256_S1024x256_S2048x1024_1_1_0_0_n_n.lhsIdx (ix2 p q) ((ValueIdx.contrEquiv1 dot_S2048x256_S1024x256_S2048x1024_1_1_0_0_n_n 256 rfl rfl).symm r) = ix2 p r := funext fun a => Fin.ext (by
    match a with
    | ⟨0, _⟩ => exact lhs_tile_0 _ _
    | ⟨1, _⟩ => exact (lhs_tile_1 _ _).trans hr)
  have er : dot_S2048x256_S1024x256_S2048x1024_1_1_0_0_n_n.rhsIdx (ix2 p q) ((ValueIdx.contrEquiv1 dot_S2048x256_S1024x256_S2048x1024_1_1_0_0_n_n 256 rfl rfl).symm r) = ix2 q r := funext fun a => Fin.ext (by
    match a with
    | ⟨0, _⟩ => exact rhs_tile_0 _ _
    | ⟨1, _⟩ => exact (rhs_tile_1 _ _).trans hr)
  rw [el, er]

/-! ## The three payloads at an entry -/

/-- The reset payload is zero at every entry. -/
theorem reset_apply (p : Fin 2048) (q : Fin 1024) : (k1_pay1 (F := Ideal)) (ix2 p q) = 0 := by
  unfold k1_pay1
  rw [shapeCast_self]
  exact Ideal.ofBits_zero_f32

/-- The step payload at entry (p, q): the accumulator's entry plus the tile product's. -/
theorem step_apply (x : Vec Ideal S2048x256 .f32) (acc : Vec Ideal S2048x1024 .f32) (w : Vec Ideal S1024x256 .bf16)
    (p : Fin 2048) (q : Fin 1024) :
    k1_pay2 x acc w (ix2 p q) = acc (ix2 p q) + ∑ r : Fin 256, x (ix2 p r) * w (ix2 q r) := by
  unfold k1_pay2
  rw [shapeCast_self, shapeCast_self, shapeCast_self]
  refine (addf_apply _ _ _).trans ?_
  refine congrArg (acc (ix2 p q) + ·) ?_
  exact tileProduct_apply (truncf .bf16 x bitsLt_bf16_f32) w p q

/-- The closing payload at entry (p, q): the accumulator's entry plus the bias tile's entry (0, q). -/
theorem close_apply (acc : Vec Ideal S2048x1024 .f32) (b : Vec Ideal S1x1024 .f32) (p : Fin 2048) (q : Fin 1024) :
    k1_pay3 acc b (ix2 p q) = acc (ix2 p q) + b (ix2 (0 : Fin 1) q) := by
  unfold k1_pay3
  rw [shapeCast_self]
  refine (addf_apply _ _ _).trans ?_
  refine congrArg (acc (ix2 p q) + ·) ?_
  refine broadcastTo_apply b broadcasts_S1x1024_S2048x1024 (ix2 p q) (ix2 (0 : Fin 1) q) fun a => ?_
  match a with
  | ⟨0, _⟩ => show (0 : ℕ) = if (1 : ℕ) = 1 then 0 else p.val; rw [if_pos rfl]
  | ⟨1, _⟩ => show q.val = if (1024 : ℕ) = 1 then 0 else q.val; rw [if_neg (by decide)]

end Cert.KernelIdeal.ProductValue

end
-- ==== Proof.ProductValue.lean ====
/-
  The output array of the product region: tile (i, j) is written back once, at the point with k = 15, and the tiles
  cover the array.  The accumulator after the point with k = κ holds zero plus the tile products of k = 0 … κ, each a sum
  over 256 input columns; at k = 15 that is the whole sum over 4096 input columns (addition of extended reals is
  associative and commutative, so the grouping into 16 blocks does not matter), and the bias row is added.
-/
import proofs.«138875_j48344151883970_1_alg».proof.Proof.ProductRegion
import proofs.«138875_j48344151883970_1_alg».proof.Proof.Spec
import proofs.«138875_j48344151883970_1_alg».proof.Proof.ProductValue.Sum
import proofs.«138875_j48344151883970_1_alg».proof.Proof.ProductValue.Tile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProductValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Where the tiles lie

Grid point t has coordinates (i, j, k) = (t / 64, t / 16 mod 4, t mod 16).  The row tile is block (i, k) of the rows,
the weight tile block (j, k) of the masked weights, the bias tile block (0, j) of the bias, the output tile block (i, j)
of the output; an entry of a block lies in its array at block index × block size + the entry's coordinate. -/

/-- The block indices of the four windows at a grid point, decided over the grid. -/
theorem idx_facts : ∀ t : Fin cfg1.N,
    win1_0.index t (0 : Fin 2) = t.val / 64 % 4 ∧ win1_0.index t (1 : Fin 2) = t.val % 16
    ∧ win1_1.index t (0 : Fin 2) = t.val / 16 % 4 ∧ win1_1.index t (1 : Fin 2) = t.val % 16
    ∧ win1_2.index t (0 : Fin 2) = 0 ∧ win1_2.index t (1 : Fin 2) = t.val / 16 % 4
    ∧ win1_3.index t (0 : Fin 2) = t.val / 64 % 4 ∧ win1_3.index t (1 : Fin 2) = t.val / 16 % 4 :=
  (by decide +kernel : ∀ t : Fin grid1.N, _)

/-- The three arrays the region reads, as it finds them. -/
abbrev rows (c : Dev nD) : FVec Ideal S8192x4096 .f32 := V c main_v0
abbrev weights (c : Dev nD) : FVec Ideal S4096x4096 .bf16 := V c main_v2
abbrev bias (c : Dev nD) : FVec Ideal S1x4096 .f32 := V c main_v1

/-- Their tiles at a grid point. -/
abbrev xtile (c : Dev nD) (t : Fin cfg1.N) : Vec Ideal S2048x256 .f32 := ProductRegion.tile V c 0 t
abbrev wtile (c : Dev nD) (t : Fin cfg1.N) : Vec Ideal S1024x256 .bf16 := ProductRegion.tile V c 1 t
abbrev btile (c : Dev nD) (t : Fin cfg1.N) : Vec Ideal S1x1024 .f32 := ProductRegion.tile V c 2 t

/-- Row p of the row tile at point n is this row of the rows; -/
def rowOf (n : ℕ) (p : Fin 2048) : Fin 8192 := ⟨2048 * (n / 64 % 4) + p.val, by have := p.isLt; omega⟩
/-- row q of the weight tile is this row of the weights (an output column); -/
def colOf (n : ℕ) (q : Fin 1024) : Fin 4096 := ⟨1024 * (n / 16 % 4) + q.val, by have := q.isLt; omega⟩
/-- column r of either tile is this input column. -/
def kOf (n : ℕ) (r : Fin 256) : Fin 4096 := ⟨256 * (n % 16) + r.val, by have := r.isLt; omega⟩

theorem xtile_apply (c : Dev nD) (t : Fin cfg1.N) (p : Fin 2048) (r : Fin 256) :
    xtile V c t (ix2 p r) = rows V c (ix2 (rowOf t.val p) (kOf t.val r)) := by
  obtain ⟨e0, e1, -⟩ := idx_facts t
  show V c main_v0 (((cfg1.win 0).blk t).view.emb (ix2 p r)) = V c main_v0 (ix2 (rowOf t.val p) (kOf t.val r))
  refine congrArg (V c main_v0) (funext fun a => Fin.ext ?_)
  match a with
  | ⟨0, _⟩ => show win1_0.index t (0 : Fin 2) * 2048 + 1 * p.val = 2048 * (t.val / 64 % 4) + p.val; rw [e0]; omega
  | ⟨1, _⟩ => show win1_0.index t (1 : Fin 2) * 256 + 1 * r.val = 256 * (t.val % 16) + r.val; rw [e1]; omega

theorem wtile_apply (c : Dev nD) (t : Fin cfg1.N) (q : Fin 1024) (r : Fin 256) :
    wtile V c t (ix2 q r) = weights V c (ix2 (colOf t.val q) (kOf t.val r)) := by
  obtain ⟨-, -, e0, e1, -⟩ := idx_facts t
  show V c main_v2 (((cfg1.win 1).blk t).view.emb (ix2 q r)) = V c main_v2 (ix2 (colOf t.val q) (kOf t.val r))
  refine congrArg (V c main_v2) (funext fun a => Fin.ext ?_)
  match a with
  | ⟨0, _⟩ => show win1_1.index t (0 : Fin 2) * 1024 + 1 * q.val = 1024 * (t.val / 16 % 4) + q.val; rw [e0]; omega
  | ⟨1, _⟩ => show win1_1.index t (1 : Fin 2) * 256 + 1 * r.val = 256 * (t.val % 16) + r.val; rw [e1]; omega

theorem btile_apply (c : Dev nD) (t : Fin cfg1.N) (q : Fin 1024) :
    btile V c t (ix2 (0 : Fin 1) q) = bias V c (ix2 (0 : Fin 1) (colOf t.val q)) := by
  obtain ⟨-, -, -, -, e0, e1, -⟩ := idx_facts t
  show V c main_v1 (((cfg1.win 2).blk t).view.emb (ix2 (0 : Fin 1) q)) = V c main_v1 (ix2 (0 : Fin 1) (colOf t.val q))
  refine congrArg (V c main_v1) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = 1024 * (t.val / 16 % 4) + q.val; rw [e1]; omega

/-! ## The accumulator -/

/-- The products the linear layer sums for output entry (row, col), one per input column. -/
def term (c : Dev nD) (row : Fin 8192) (col : Fin 4096) : Fin 4096 → EReal :=
  fun k => rows V c (ix2 row k) * weights V c (ix2 col k)

/-- The tile product at a grid point, at entry (p, q), is the point's run of 256 input columns of that sum. -/
theorem pointProduct (c : Dev nD) (t : Fin cfg1.N) (p : Fin 2048) (q : Fin 1024) :
    ∑ r : Fin 256, xtile V c t (ix2 p r) * wtile V c t (ix2 q r)
      = blockSum (term V c (rowOf t.val p) (colOf t.val q)) (t.val % 16) := by
  rw [blockSum_of_lt _ (Nat.mod_lt _ (by decide))]
  refine Finset.sum_congr rfl fun r _ => ?_
  rw [xtile_apply, wtile_apply]
  rfl

/-- Points of one output tile share their rows and columns. -/
theorem rowOf_succ {n : ℕ} (h : (n + 1) % 16 ≠ 0) (p : Fin 2048) : rowOf n p = rowOf (n + 1) p :=
  Fin.ext (by show 2048 * (n / 64 % 4) + p.val = 2048 * ((n + 1) / 64 % 4) + p.val; omega)
theorem colOf_succ {n : ℕ} (h : (n + 1) % 16 ≠ 0) (q : Fin 1024) : colOf n q = colOf (n + 1) q :=
  Fin.ext (by show 1024 * (n / 16 % 4) + q.val = 1024 * ((n + 1) / 16 % 4) + q.val; omega)

/-- After the point with k = κ the accumulator's entry (p, q) is the runs 0 … κ of the sum for the output entry it
    belongs to: by induction over the points, the accumulator restarting from zero where k = 0. -/
theorem partial_eq (c : Dev nD) : ∀ (n : ℕ) (h : n < cfg1.N) (p : Fin 2048) (q : Fin 1024),
    ProductRegion.partialAfter V c n h (ix2 p q)
      = ∑ κ ∈ Finset.range (n % 16 + 1), blockSum (term V c (rowOf n p) (colOf n q)) κ := by
  have first : ∀ (t : Fin cfg1.N) (h0 : t.val % 16 = 0) (p : Fin 2048) (q : Fin 1024),
      ProductRegion.partialAfter V c t.val t.isLt (ix2 p q)
        = ∑ κ ∈ Finset.range (t.val % 16 + 1), blockSum (term V c (rowOf t.val p) (colOf t.val q)) κ := by
    intro t h0 p q
    rw [ProductRegion.partialAfter_first V c t h0]
    refine (step_apply (xtile V c t) (k1_pay1 (F := Ideal)) (wtile V c t) p q).trans ?_
    rw [reset_apply, pointProduct, h0]
    exact (sum_range_one_blockSum _).symm
  intro n
  induction n with
  | zero => intro h p q; exact first ⟨0, h⟩ rfl p q
  | succ n ih =>
    intro h p q
    by_cases h0 : (n + 1) % 16 = 0
    · exact first ⟨n + 1, h⟩ h0 p q
    · rw [ProductRegion.partialAfter_next V c ⟨n + 1, h⟩ h0]
      refine (step_apply (xtile V c ⟨n + 1, h⟩) (ProductRegion.partialAfter V c n (Nat.lt_of_succ_lt h)) (wtile V c ⟨n + 1, h⟩) p q).trans ?_
      rw [ih (Nat.lt_of_succ_lt h) p q, pointProduct, rowOf_succ h0, colOf_succ h0]
      show _ + blockSum _ ((n + 1) % 16) = _
      rw [show (n + 1) % 16 = n % 16 + 1 by omega]
      exact (Finset.sum_range_succ _ _).symm

/-! ## The output array -/

/-- What a point with k = 15 writes back is its block of the linear layer of the three arrays. -/
theorem flushed_eq (c : Dev nD) (t : Fin cfg1.N) (hf : (cfg1.win 3).flush t = true) :
    (ProductRegion.dat (F := Ideal) V c).flushed 3 t
      = ((cfg1.win 3).blk t).view.read (Elt Ideal) (Cert.Spec.linear (V c main_v0) (V c main_v2) (V c main_v1)) := by
  have h15 : t.val % 16 = 15 := (flush1_3 t).mp hf
  obtain ⟨-, -, -, -, -, -, e0, e1⟩ := idx_facts t
  show (cfg1.win 3).cut (grid1.coords t) ((ProductRegion.dat (F := Ideal) V c).after 3 t) = _
  rw [ProductRegion.after_out]
  funext j
  obtain ⟨p, q, rfl⟩ : ∃ (p : Fin 2048) (q : Fin 1024), j = ix2 p q := ⟨j 0, j 1, eq_ix2 j⟩
  show ProductRegion.outTile V c t (ix2 p q)
    = Cert.Spec.linear (rows V c) (weights V c) (bias V c) (((cfg1.win 3).blk t).view.emb (ix2 p q))
  have hemb : ((cfg1.win 3).blk t).view.emb (ix2 p q) = ix2 (rowOf t.val p) (colOf t.val q) := by
    funext a; apply Fin.ext
    match a with
    | ⟨0, _⟩ => show win1_3.index t (0 : Fin 2) * 2048 + 1 * p.val = 2048 * (t.val / 64 % 4) + p.val; rw [e0]; omega
    | ⟨1, _⟩ => show win1_3.index t (1 : Fin 2) * 1024 + 1 * q.val = 1024 * (t.val / 16 % 4) + q.val; rw [e1]; omega
  rw [hemb]
  unfold ProductRegion.outTile
  refine (close_apply (ProductRegion.partialAfter V c t.val t.isLt) (btile V c t) p q).trans ?_
  rw [partial_eq, btile_apply, h15, ← sum_eq_blockSums]
  rfl

/-- An entry of the output lies in point t's block iff each coordinate lies in the block's range on its axis. -/
theorem mem_blk (t : Fin cfg1.N) (i : S8192x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v3).slice (win1_3.rect t)).set ↔ _
  rw [View.set_slice_whole, Rect.mem_set_unit]
  exact Iff.rfl

/-- Every entry (row, col) of the output lies in the block of the point with i = row / 2048, j = col / 1024, k = 15,
    which writes its block back. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 256 := N_1
  let t : Fin cfg1.N := ⟨64 * ((i 0).val / 2048) + 16 * ((i 1).val / 1024) + 15, by rw [hN]; omega⟩
  have ht : t.val = 64 * ((i 0).val / 2048) + 16 * ((i 1).val / 1024) + 15 := rfl
  obtain ⟨-, -, -, -, -, -, e0, e1⟩ := idx_facts t
  refine ⟨t, (flush1_3 t).mpr (by rw [ht]; omega), ?_⟩
  rw [mem_blk]
  intro a
  match a with
  | ⟨0, _⟩ => show win1_3.index t (0 : Fin 2) * 2048 ≤ (i 0).val ∧ (i 0).val < win1_3.index t (0 : Fin 2) * 2048 + 2048; rw [e0, ht]; omega
  | ⟨1, _⟩ => show win1_3.index t (1 : Fin 2) * 1024 ≤ (i 1).val ∧ (i 1).val < win1_3.index t (1 : Fin 2) * 1024 + 1024; rw [e1, ht]; omega

/-- After the product region its output array holds the linear layer of the row, weight and bias arrays it found. -/
theorem product_eq (c : Dev nD) :
    (ProductRegion.dat (F := Ideal) V c).arrAt 3 cfg1.N = Cert.Spec.linear (V c main_v0) (V c main_v2) (V c main_v1) :=
  (ProductRegion.dat (F := Ideal) V c).arrAt_eq_of_cover 3 (Cert.Spec.linear (V c main_v0) (V c main_v2) (V c main_v1))
    (fun t hf => flushed_eq V c t hf) cover

end Cert.KernelIdeal.ProductValue

end
-- ==== Proof.KernelValue.lean ====
/-
  The kernel program's result as one function of its arguments: the reshaped output of the linear layer on the
  reshaped input rows, the masked weights and the reshaped bias is the pruned linear layer.  Row r = b·2048 + s of the
  8192×4096 arrays is entry (b, s) of the 4×2048×4096 ones, so the two reshapes cancel index by index.
-/
import proofs.«138875_j48344151883970_1_alg».proof.Proof.Program
import proofs.«138875_j48344151883970_1_alg».proof.Proof.MaskValue
import proofs.«138875_j48344151883970_1_alg».proof.Proof.ProductValue
import proofs.«138875_j48344151883970_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KernelValue

open Idealize.ShloMosaic Idealize.ShloMosaic.TcCoe
open Idealize.SL Idealize.SL.Sem
open Idealize.ShloMosaic.Pipeline (Dat)
open Cert.KernelIdeal Cert.KernelIdeal.Gen
open Idealize.ShloMosaic.ValueIdx

/-- The row of the 8192×4096 arrays that holds entry (a, r) of the 4×2048×4096 ones. -/
def rowOf (a : Fin 4) (r : Fin 2048) : Fin 8192 := ⟨a.val * 2048 + r.val, by have := a.isLt; have := r.isLt; omega⟩

/-- The reshaped input at (row, k) is the input at (a, r, k). -/
theorem rows_apply (x : FVec Ideal S4x2048x4096 .f32) (a : Fin 4) (r : Fin 2048) (k : Fin 4096) :
    shapeCast S8192x4096 x shapeCasts_S4x2048x4096_S8192x4096 (ix2 (rowOf a r) k) = x (ix3 a r k) :=
  shapeCast_apply x shapeCasts_S4x2048x4096_S8192x4096 (ix2 (rowOf a r) k) (ix3 a r k)
    (by rewrite [Shape.rowMajor_val_three, Shape.rowMajor_val_two]
        show (a.val * 2048 + r.val) * 4096 + k.val = (a.val * 2048 + r.val) * 4096 + k.val; rfl)

/-- The reshaped bias at (0, o) is the bias at o. -/
theorem bias_apply (b : FVec Ideal S4096 .f32) (o : Fin 4096) :
    shapeCast S1x4096 b shapeCasts_S4096_S1x4096 (ix2 (0 : Fin 1) o) = b (ix1 o) :=
  shapeCast_apply b shapeCasts_S4096_S1x4096 (ix2 (0 : Fin 1) o) (ix1 o)
    (by rewrite [Shape.rowMajor_val_one, Shape.rowMajor_val_two]
        show o.val = 0 * 4096 + o.val; omega)

/-- The reshaped result at (a, r, o) is the 8192×4096 array at (row, o). -/
theorem out_apply (y : FVec Ideal S8192x4096 .f32) (a : Fin 4) (r : Fin 2048) (o : Fin 4096) :
    shapeCast S4x2048x4096 y shapeCasts_S8192x4096_S4x2048x4096 (ix3 a r o) = y (ix2 (rowOf a r) o) :=
  shapeCast_apply y shapeCasts_S8192x4096_S4x2048x4096 (ix3 a r o) (ix2 (rowOf a r) o)
    (by rewrite [Shape.rowMajor_val_three, Shape.rowMajor_val_two]
        show (a.val * 2048 + r.val) * 4096 + o.val = (a.val * 2048 + r.val) * 4096 + o.val; rfl)

/-- Reshaping in, applying the linear layer with the masked weights, and reshaping out is the pruned linear layer. -/
theorem reshaped_linear (x : FVec Ideal S4x2048x4096 .f32) (w : FVec Ideal S4096x4096 .f32) (b : FVec Ideal S4096 .f32)
    (s : FVec Ideal S128x128 .f32) :
    shapeCast S4x2048x4096
        (Cert.Spec.linear (shapeCast S8192x4096 x shapeCasts_S4x2048x4096_S8192x4096) (Cert.Spec.maskedWeights w s)
          (shapeCast S1x4096 b shapeCasts_S4096_S1x4096))
        shapeCasts_S8192x4096_S4x2048x4096
      = Cert.Spec.pruned x w b s := by
  funext i
  obtain ⟨a, r, o, rfl⟩ : ∃ (a : Fin 4) (r : Fin 2048) (o : Fin 4096), i = ix3 a r o := ⟨i 0, i 1, i 2, eq_ix3 i⟩
  rw [out_apply]
  show (∑ k : Fin 4096, shapeCast S8192x4096 x shapeCasts_S4x2048x4096_S8192x4096 (ix2 (rowOf a r) k)
      * (Cert.Spec.maskedWeights w s) (ix2 o k)) + shapeCast S1x4096 b shapeCasts_S4096_S1x4096 (ix2 (0 : Fin 1) o) = _
  simp only [rows_apply, bias_apply]
  rfl

variable (m : (ℓ : Loc nD τ sig) → Buf (Elt Ideal) ℓ) (ρ : Dev nD → PrngReg)

/-- The idealized kernel program terminates with its result at the pruned linear layer of its arguments, which it
    leaves unchanged. -/
theorem run : θ_run defs (onTc (τ := τ) (main (F := Ideal))) ⟨m, fun _ => 0, ρ⟩ (fun r => ∀ c : Dev nD,
      r.2.mem ((c.tc : Thread nD τ).loc main_v4)
        = Cert.Spec.pruned (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Program.run_result (F := Ideal) m ρ)
  obtain ⟨h4, h0, h1, h2, h3⟩ := h c
  refine ⟨h4.trans ?_, h0, h1, h2, h3⟩
  rw [ProductValue.product_eq (Program.V2 m) c, Program.V2_rows, Program.V2_bias, Program.V2_masked,
    MaskValue.masked_eq (Program.V1 m) c, Program.V1_weight, Program.V1_scores]
  exact reshaped_linear _ _ _ _

end Cert.KernelIdeal.KernelValue

end
-- ==== Proof.RefValue.lean ====
/-
  The reference program's result is the pruned linear layer: jax spells the logistic as 1 / (1 + exp(−s)), which on
  the extended reals is the logistic function; the two repeats expand the 128×128 gate matrix so that entry (o, i) reads
  gate (o / 32, i / 32); the general dot contracts the input's last axis with the weight's second.
-/
import proofs.«138875_j48344151883970_1_alg».proof.Proof.Gen.ReferenceIdeal.Read
import proofs.«138875_j48344151883970_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read
open Idealize.ShloMosaic.ValueIdx

/-- The single-precision word of 1.0 denotes the extended real one. -/
theorem ofBits_one : Ideal.ofBits .f32 0x3F800000#32 = (1 : EReal) := by
  simp [Ideal.ofBits, Ideal.ieee, -EReal.coe_mul]; norm_num

/-- The expansion 1 / (1 + exp (−s)) is the logistic of s; the strict comparison against the threshold word is one bit,
    and that bit read back as a float is 1 where the logistic exceeds the threshold and 0 elsewhere: the gate of s.
    The threshold word is the same on both sides and is never evaluated. -/
theorem gate_of_expansion (s : EReal) :
    FloatOps.uitofp (F := Ideal) .f32 (FloatOps.cmpf (F := Ideal) (φ := .f32) .ogt
      (FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) s))))
      (FloatOps.ofBits .f32 0x3DCCCCCD#32)) = Cert.Spec.gate s := by
  show (((Ideal.cmp .ogt (Ideal.div (Ideal.ofBits .f32 0x3F800000#32)
      (Ideal.ofBits .f32 0x3F800000#32 + Ideal.exp (-s))) (Ideal.ofBits .f32 0x3DCCCCCD#32)).toNat : ℝ) : EReal)
    = Cert.Spec.gate s
  rw [ofBits_one]
  show (((BitVec.ofBool (decide (Ideal.ofBits .f32 0x3DCCCCCD#32 < Ideal.logistic s))).toNat : ℝ) : EReal)
    = Cert.Spec.gate s
  unfold Cert.Spec.gate
  by_cases h : (Ideal.ofBits .f32 0x3DCCCCCD#32 : EReal) < Ideal.logistic s
  · rw [if_pos h, decide_eq_true h]; simp
  · rw [if_neg h, decide_eq_false h]; simp

/-- Through the two reshapes and the two repeats, entry (o, k) of the expanded gate matrix reads score (o / 32, k / 32):
    the flat position o·4096 + k splits as (o, k / 32, k % 32); the flat position o·128 + k / 32 splits as
    (o / 32, o % 32, k / 32); the repeats drop the middle coordinate. -/
theorem expand_idx (o k : Fin 4096) :
    idx_main_v9 (idx_main_v10 (idx_main_v11 (idx_main_v12 (ix2 o k))))
      = ix2 (Cert.Spec.blockOf o) (Cert.Spec.blockOf k) := by
  funext a
  refine Fin.ext ?_
  have ho := o.isLt
  have hk := k.isLt
  match a with
  | ⟨0, _⟩ =>
    show ((o.val * 4096 + k.val) / 4096 * 128 + (o.val * 4096 + k.val) / 32 % 128) / 4096 = o.val / 32
    omega
  | ⟨1, _⟩ =>
    show ((o.val * 4096 + k.val) / 4096 * 128 + (o.val * 4096 + k.val) / 32 % 128) % 128 = k.val / 32
    omega

/-- The expanded gate matrix at (o, k) is the gate of score (o / 32, k / 32). -/
theorem mask_apply (s : FVec Ideal S128x128 .f32) (o k : Fin 4096) :
    val_main_v12 (F := Ideal) s (ix2 o k)
      = Cert.Spec.gate (s (ix2 (Cert.Spec.blockOf o) (Cert.Spec.blockOf k))) := by
  rw [val_main_v12_apply, val_main_v11_apply, val_main_v10_apply, val_main_v9_apply, val_main_v8_apply,
    val_main_v7_apply, val_main_v5_apply, val_main_v6_apply, val_main_v4_apply, val_main_v3_apply, val_main_v2_apply,
    val_main_v1_apply, val_main_v0_apply, val_main_cst_apply, val_main_cst_0_apply, val_main_cst_1_apply, expand_idx]
  exact gate_of_expansion _

/-- The reference's last stage is the pruned linear layer of its arguments. -/
theorem result_eq (x : FVec Ideal S4x2048x4096 .f32) (w : FVec Ideal S4096x4096 .f32) (b : FVec Ideal S4096 .f32)
    (s : FVec Ideal S128x128 .f32) :
    val_main_v17 (F := Ideal) x w b s = Cert.Spec.pruned x w b s := by
  funext i
  obtain ⟨a, r, o, rfl⟩ : ∃ (a : Fin 4) (r : Fin 2048) (o : Fin 4096), i = ix3 a r o := ⟨i 0, i 1, i 2, eq_ix3 i⟩
  rw [val_main_v17_apply, val_main_v14_apply, val_main_v16_apply, val_main_v15_apply]
  -- the bias is read at the output coordinate; the dot reads row (a, r, k) of the input and entry (o, k) of the weights
  have hb : idx_main_v15 (idx_main_v16 (ix3 a r o)) = ix1 o := by
    funext d; match d with | ⟨0, _⟩ => rfl
  have hl : ∀ k : Fin 4096, lidx_main_v14 (ix3 a r o) k = ix3 a r k := fun k => by
    funext d; match d with | ⟨0, _⟩ => rfl | ⟨1, _⟩ => rfl | ⟨2, _⟩ => rfl
  have hr : ∀ k : Fin 4096, ridx_main_v14 (ix3 a r o) k = ix2 o k := fun k => by
    funext d; match d with | ⟨0, _⟩ => rfl | ⟨1, _⟩ => rfl
  rw [hb]
  show (∑ k : Fin 4096, x (lidx_main_v14 (ix3 a r o) k)
        * val_main_v13 (F := Ideal) w s (ridx_main_v14 (ix3 a r o) k)) + b (ix1 o)
    = (∑ k : Fin 4096, x (ix3 a r k)
        * (w (ix2 o k) * Cert.Spec.gate (s (ix2 (Cert.Spec.blockOf o) (Cert.Spec.blockOf k))))) + b (ix1 o)
  congr 1
  refine Finset.sum_congr rfl fun k _ => ?_
  rw [hl, hr, val_main_v13_apply, mask_apply]
  rfl

end Cert.ReferenceIdeal.RefValue

end
-- ==== Proof.lean ====
/-
  The certificate's claims, assembled.

  Both programs compute the pruned linear layer: out (b, s, o) = Σ_i x (b, s, i) · (weight (o, i) · gate (score (o / 32,
  i / 32))) + bias (o), the gate being one where logistic(score) exceeds the single-precision number nearest 0.1.  The
  kernel program masks the weights in one launch and multiplies in a second one, accumulating 16 blocks of 256 input
  columns; the reference multiplies once.  On the extended reals the two agree index by index, since regrouping a finite
  sum needs only associativity and commutativity of addition; no argument's finiteness is used.
  The three frames: the kernel program at both instances by following every buffer through its two launches, the
  reference by its run with the result dropped.  The idealization rewrote nothing, so its soundness claim is `True`.
-/
import proofs.«138875_j48344151883970_1_alg».proof.Defs
import proofs.«138875_j48344151883970_1_alg».proof.Proof.Gen.Kernel
import proofs.«138875_j48344151883970_1_alg».proof.Proof.Gen.KernelIdeal
import proofs.«138875_j48344151883970_1_alg».proof.Proof.Gen.ReferenceIdeal
import proofs.«138875_j48344151883970_1_alg».proof.Proof.Gen.ReferenceIdeal.Run
import proofs.«138875_j48344151883970_1_alg».proof.Proof.Gen.ReferenceIdeal.Read
import proofs.«138875_j48344151883970_1_alg».proof.Proof.Gen.Pre_finite_inputs
import proofs.«138875_j48344151883970_1_alg».proof.Proof.Word.Program
import proofs.«138875_j48344151883970_1_alg».proof.Proof.Program
import proofs.«138875_j48344151883970_1_alg».proof.Proof.KernelValue
import proofs.«138875_j48344151883970_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Program.frame m ρ

/-- So does its reading over the extended reals. -/
theorem frame_kernelIdeal : Cert.frame_KernelIdeal := fun m ρ _ => Cert.KernelIdeal.Program.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end at the pruned linear layer of arguments that agree. -/
theorem algebraic : Cert.algebraic_KernelIdeal_ReferenceIdeal := by
  intro m ρ m' ρ' _ hagree
  refine ⟨fun c => Cert.Spec.pruned (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
